-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x20x1024x64 : Shape := ⟨4, ![3, 20, 1024, 64]⟩
abbrev S64 : Shape := ⟨1, ![64]⟩
abbrev S_ : Shape := ⟨0, ![]⟩

class Facts : Prop where
  bcast_S_S3x20x1024x64 : S_.BroadcastsInDim S3x20x1024x64 (![] : Fin 0 → Fin S3x20x1024x64.rank)
  reducesTo_S3x20x1024x64_S_d0_1_2_3 : S3x20x1024x64.ReducesTo [0, 1, 2, 3] S_
  h_S_ : 0 < S_.numel
  bcast_S_S64 : S_.BroadcastsInDim S64 (![] : Fin 0 → Fin S64.rank)
  reducesTo_S64_S_d0 : S64.ReducesTo [0] S_

variable [Facts]

def fn_part4 {F : FTy → Type} [FloatOps F] (main_arg14 : FVec F S64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg11 : FVec F S64 .f32) (main_arg12 : FVec F S64 .f32) (main_arg13 : FVec F S64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_v63 main_v67

def fn_part2 {F : FTy → Type} [FloatOps F] (main_arg7 : FVec F S64 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_v48 main_v49 main_v50

def fn_part1 {F : FTy → Type} [FloatOps F] (main_arg4 : FVec F S64 .f32) (main_arg5 : FVec F S64 .f32) (main_arg6 : FVec F S64 .f32) (main_arg7 : FVec F S64 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S3x20x1024x64 .f32) (main_arg1 : FVec F S64 .f32) (main_arg2 : FVec F S64 .f32) (main_arg3 : FVec F S64 .f32) (main_arg4 : FVec F S64 .f32) (main_arg5 : FVec F S64 .f32) (main_arg6 : FVec F S64 .f32) (main_arg7 : FVec F S64 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) : IVec S_ 1 :=
  let main_v0 : FVec F S3x20x1024x64 .f32 := Host.absf main_arg0
  let main_cst : FVec F S_ .f32 := constant S_ .f32 0x7F800000#32
  let main_v1 : FVec F S3x20x1024x64 .f32 := broadcastInDim S3x20x1024x64 ![] bcast_S_S3x20x1024x64 main_cst
  let main_v2 : IVec S3x20x1024x64 1 := cmpf .olt main_v0 main_v1
  let main_c : IVec S_ 1 := constantI S_ 1 1#1
  let main_v3 : IVec S_ 1 := (fun x v => Host.reduce IntOp.andi x v reducesTo_S3x20x1024x64_S_d0_1_2_3 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S3x20x1024x64 : Shape := ⟨4, ![3, 20, 1024, 64]⟩
abbrev S64 : Shape := ⟨1, ![64]⟩
abbrev S20x1024x64 : Shape := ⟨3, ![20, 1024, 64]⟩
abbrev S3x1x1024x64 : Shape := ⟨4, ![3, 1, 1024, 64]⟩
abbrev S1x1024x64 : Shape := ⟨3, ![1, 1024, 64]⟩
abbrev S1x1x1024x64 : Shape := ⟨4, ![1, 1, 1024, 64]⟩
abbrev S1024x64 : Shape := ⟨2, ![1024, 64]⟩
abbrev S1x64 : Shape := ⟨2, ![1, 64]⟩
abbrev S1024x16 : Shape := ⟨2, ![1024, 16]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 16
  | .vmem => 18
  | .smem => 0
  | _ => 0

abbrev bufTy : (tb : Table) → Fin (tcTables nBuf tb) → BufTy
  | .hbm, ⟨0, _⟩ => ⟨S3x20x1024x64, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S20x1024x64, .f32⟩
  | .local _ .vmem, ⟨0, _⟩ => ⟨S3x1x1024x64, .f32⟩
  | .local _ .vmem, ⟨1, _⟩ => ⟨S3x1x1024x64, .f32⟩
  | .local _ .vmem, ⟨2, _⟩ => ⟨S64, .f32⟩
  | .local _ .vmem, ⟨3, _⟩ => ⟨S64, .f32⟩
  | .local _ .vmem, ⟨4, _⟩ => ⟨S64, .f32⟩
  | .local _ .vmem, ⟨5, _⟩ => ⟨S64, .f32⟩
  | .local _ .vmem, ⟨6, _⟩ => ⟨S64, .f32⟩
  | .local _ .vmem, ⟨7, _⟩ => ⟨S64, .f32⟩
  | .local _ .vmem, ⟨8, _⟩ => ⟨S64, .f32⟩
  | .local _ .vmem, ⟨9, _⟩ => ⟨S64, .f32⟩
  | .local _ .vmem, ⟨10, _⟩ => ⟨S64, .f32⟩
  | .local _ .vmem, ⟨11, _⟩ => ⟨S64, .f32⟩
  | .local _ .vmem, ⟨12, _⟩ => ⟨S64, .f32⟩
  | .local _ .vmem, ⟨13, _⟩ => ⟨S64, .f32⟩
  | .local _ .vmem, ⟨14, _⟩ => ⟨S64, .f32⟩
  | .local _ .vmem, ⟨15, _⟩ => ⟨S64, .f32⟩
  | .local _ .vmem, ⟨16, _⟩ => ⟨S1x1024x64, .f32⟩
  | .local _ .vmem, ⟨17, _⟩ => ⟨S1x1024x64, .f32⟩
  | _, _ => ⟨S3x20x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x1024x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  inb_S3x1x1024x64_S1x1x1024x64_0_0_0_0 : ∀ a, (![0, 0, 0, 0] : Fin 4 → Nat) a + S1x1x1024x64.size a ≤ S3x1x1024x64.size a
  h_S1x1x1024x64 : 0 < S1x1x1024x64.numel
  shapeCasts_S1x1x1024x64_S1024x64 : S1x1x1024x64.ShapeCasts S1024x64
  inb_S3x1x1024x64_S1x1x1024x64_1_0_0_0 : ∀ a, (![1, 0, 0, 0] : Fin 4 → Nat) a + S1x1x1024x64.size a ≤ S3x1x1024x64.size a
  inb_S3x1x1024x64_S1x1x1024x64_2_0_0_0 : ∀ a, (![2, 0, 0, 0] : Fin 4 → Nat) a + S1x1x1024x64.size a ≤ S3x1x1024x64.size a
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  slices_S1024x64_o0_0_S1024x16 : S1024x64.Slices ![0, 0] S1024x16
  bitsLt_bf16_f32 : FTy.bits .bf16 < FTy.bits .f32
  reduces_S1024x1024_S1024 : S1024x1024.Reduces [1] S1024
  shapeCasts_S1024_S1024x1 : S1024.ShapeCasts S1024x1
  broadcasts_S1024x1_S1024x1024 : S1024x1.Broadcasts S1024x1024
  slices_S1024x64_o0_16_S1024x16 : S1024x64.Slices ![0, 16] S1024x16
  slices_S1024x64_o0_32_S1024x16 : S1024x64.Slices ![0, 32] S1024x16
  slices_S1024x64_o0_48_S1024x16 : S1024x64.Slices ![0, 48] S1024x16
  concatenates_S1024x16_S1024x16_S1024x16_S1024x16_S1024x64_d1 : Shape.Concatenates [S1024x16, S1024x16, S1024x16, S1024x16] S1024x64 1
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  dot_S1024x16_S1024x16_S1024x1024_1_1_0_0_n_n_wf : DotDims.WF S1024x16 S1024x16 S1024x1024 [1] [1] [0] [0] [] []
  dot_S1024x1024_S1024x16_S1024x16_1_0_0_1_n_n_wf : DotDims.WF S1024x1024 S1024x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x1x1024x64.size a ≤ S3x20x1024x64.size a
  hwx0_0 : ∀ i : grid0.Coords, EltTy.bits .f32 = 32 ∨ (Rect.block (s := S3x20x1024x64) S3x1x1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64.size a ≤ S64.size a
  hwx0_1 : ∀ i : grid0.Coords, EltTy.bits .f32 = 32 ∨ (Rect.block (s := S64) S64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64.size a ≤ S64.size a
  hwx0_13 : ∀ i : grid0.Coords, EltTy.bits .f32 = 32 ∨ (Rect.block (s := S64) S64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64.size a ≤ S64.size a
  hwx0_14 : ∀ i : grid0.Coords, EltTy.bits .f32 = 32 ∨ (Rect.block (s := S64) S64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x1024x64.size a ≤ S20x1024x64.size a
  hwx0_15 : ∀ i : grid0.Coords, EltTy.bits .f32 = 32 ∨ (Rect.block (s := S20x1024x64) S1x1024x64.size (cc0_transform_15 i) (hinb0_15 i)).WholeWords (EltTy.packing .f32)

variable [Facts₀]

def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf

abbrev win0_0 : Pipeline.Window sig grid0 :=
  Pipeline.Window.ofSpec (Memref.whole main_arg0) S3x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0) S1x1024x64.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S3x20x1024x64 : Shape := ⟨4, ![3, 20, 1024, 64]⟩
abbrev S64 : Shape := ⟨1, ![64]⟩
abbrev S1x20x1024x64 : Shape := ⟨4, ![1, 20, 1024, 64]⟩
abbrev S20x1024x64 : Shape := ⟨3, ![20, 1024, 64]⟩
abbrev S1x1x64 : Shape := ⟨3, ![1, 1, 64]⟩
abbrev S20x1024x4x16 : Shape := ⟨4, ![20, 1024, 4, 16]⟩
abbrev S20x4x1024x16 : Shape := ⟨4, ![20, 4, 1024, 16]⟩
abbrev S20x4x1024x1024 : Shape := ⟨4, ![20, 4, 1024, 1024]⟩
abbrev S_ : Shape := ⟨0, ![]⟩
abbrev S20x4x1024 : Shape := ⟨3, ![20, 4, 1024]⟩
abbrev S20x4x1024x1 : Shape := ⟨4, ![20, 4, 1024, 1]⟩

abbrev nBuf : Space → Nat
  | .hbm => 127
  | .vmem => 0
  | .smem => 0
  | _ => 0

abbrev bufTy : (tb : Table) → Fin (tcTables nBuf tb) → BufTy
  | .hbm, ⟨0, _⟩ => ⟨S3x20x1024x64, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S1x20x1024x64, .f32⟩
  | .hbm, ⟨16, _⟩ => ⟨S20x1024x64, .f32⟩
  | .hbm, ⟨17, _⟩ => ⟨S1x20x1024x64, .f32⟩
  | .hbm, ⟨18, _⟩ => ⟨S20x1024x64, .f32⟩
  | .hbm, ⟨19, _⟩ => ⟨S1x20x1024x64, .f32⟩
  | .hbm, ⟨20, _⟩ => ⟨S20x1024x64, .f32⟩
  | .hbm, ⟨21, _⟩ => ⟨S1x1x64, .f32⟩
  | .hbm, ⟨22, _⟩ => ⟨S20x1024x64, .f32⟩
  | .hbm, ⟨23, _⟩ => ⟨S20x1024x64, .f32⟩
  | .hbm, ⟨24, _⟩ => ⟨S1x1x64, .f32⟩
  | .hbm, ⟨25, _⟩ => ⟨S20x1024x64, .f32⟩
  | .hbm, ⟨26, _⟩ => ⟨S20x1024x64, .f32⟩
  | .hbm, ⟨27, _⟩ => ⟨S1x1x64, .f32⟩
  | .hbm, ⟨28, _⟩ => ⟨S20x1024x64, .f32⟩
  | .hbm, ⟨29, _⟩ => ⟨S20x1024x64, .f32⟩
  | .hbm, ⟨30, _⟩ => ⟨S1x1x64, .f32⟩
  | .hbm, ⟨31, _⟩ => ⟨S20x1024x64, .f32⟩
  | .hbm, ⟨32, _⟩ => ⟨S20x1024x64, .f32⟩
  | .hbm, ⟨33, _⟩ => ⟨S1x1x64, .f32⟩
  | .hbm, ⟨34, _⟩ => ⟨S20x1024x64, .f32⟩
  | .hbm, ⟨35, _⟩ => ⟨S20x1024x64, .f32⟩
  | .hbm, ⟨36, _⟩ => ⟨S1x1x64, .f32⟩
  | .hbm, ⟨37, _⟩ => ⟨S20x1024x64, .f32⟩
  | .hbm, ⟨38, _⟩ => ⟨S20x1024x64, .f32⟩
  | .hbm, ⟨39, _⟩ => ⟨S20x1024x4x16, .f32⟩
  | .hbm, ⟨40, _⟩ => ⟨S20x4x1024x16, .f32⟩
  | .hbm, ⟨41, _⟩ => ⟨S20x1024x4x16, .f32⟩
  | .hbm, ⟨42, _⟩ => ⟨S20x4x1024x16, .f32⟩
  | .hbm, ⟨43, _⟩ => ⟨S20x1024x4x16, .f32⟩
  | .hbm, ⟨44, _⟩ => ⟨S20x4x1024x16, .f32⟩
  | .hbm, ⟨45, _⟩ => ⟨S20x4x1024x1024, .f32⟩
  | .hbm, ⟨46, _⟩ => ⟨S_, .f32⟩
  | .hbm, ⟨47, _⟩ => ⟨S20x4x1024x1024, .f32⟩
  | .hbm, ⟨48, _⟩ => ⟨S20x4x1024x1024, .f32⟩
  | .hbm, ⟨49, _⟩ => ⟨S_, .f32⟩
  | .hbm, ⟨50, _⟩ => ⟨S20x4x1024, .f32⟩
  | .hbm, ⟨51, _⟩ => ⟨S_, .f32⟩
  | .hbm, ⟨52, _⟩ => ⟨S20x4x1024, .f32⟩
  | .hbm, ⟨53, _⟩ => ⟨S20x4x1024, .f32⟩
  | .hbm, ⟨54, _⟩ => ⟨S20x4x1024x1, .f32⟩
  | .hbm, ⟨55, _⟩ => ⟨S20x4x1024x1024, .f32⟩
  | .hbm, ⟨56, _⟩ => ⟨S20x4x1024x1024, .f32⟩
  | .hbm, ⟨57, _⟩ => ⟨S20x4x1024x1024, .f32⟩
  | .hbm, ⟨58, _⟩ => ⟨S_, .f32⟩
  | .hbm, ⟨59, _⟩ => ⟨S20x4x1024, .f32⟩
  | .hbm, ⟨60, _⟩ => ⟨S20x4x1024x1, .f32⟩
  | .hbm, ⟨61, _⟩ => ⟨S20x4x1024x1024, .f32⟩
  | .hbm, ⟨62, _⟩ => ⟨S20x4x1024x1024, .f32⟩
  | .hbm, ⟨63, _⟩ => ⟨S20x4x1024x16, .f32⟩
  | .hbm, ⟨64, _⟩ => ⟨S20x1024x4x16, .f32⟩
  | .hbm, ⟨65, _⟩ => ⟨S20x1024x64, .f32⟩
  | .hbm, ⟨66, _⟩ => ⟨S1x1x64, .f32⟩
  | .hbm, ⟨67, _⟩ => ⟨S20x1024x64, .f32⟩
  | .hbm, ⟨68, _⟩ => ⟨S20x1024x64, .f32⟩
  | .hbm, ⟨69, _⟩ => ⟨S1x1x64, .f32⟩
  | .hbm, ⟨70, _⟩ => ⟨S20x1024x64, .f32⟩
  | .hbm, ⟨71, _⟩ => ⟨S20x1024x64, .f32⟩
  | .hbm, ⟨72, _⟩ => ⟨S1x1x64, .f32⟩
  | .hbm, ⟨73, _⟩ => ⟨S20x1024x64, .f32⟩
  | .hbm, ⟨74, _⟩ => ⟨S20x1024x64, .f32⟩
  | .hbm, ⟨75, _⟩ => ⟨S1x1x64, .f32⟩
  | .hbm, ⟨76, _⟩ => ⟨S20x1024x64, .f32⟩
  | .hbm, ⟨77, _⟩ => ⟨S20x1024x64, .f32⟩
  | .hbm, ⟨78, _⟩ => ⟨S1x1x64, .f32⟩
  | .hbm, ⟨79, _⟩ => ⟨S20x1024x64, .f32⟩
  | .hbm, ⟨80, _⟩ => ⟨S20x1024x64, .f32⟩
  | .hbm, ⟨81, _⟩ => ⟨S1x1x64, .f32⟩
  | .hbm, ⟨82, _⟩ => ⟨S20x1024x64, .f32⟩
  | .hbm, ⟨83, _⟩ => ⟨S20x1024x64, .f32⟩
  | .hbm, ⟨84, _⟩ => ⟨S20x1024x4x16, .f32⟩
  | .hbm, ⟨85, _⟩ => ⟨S20x4x1024x16, .f32⟩
  | .hbm, ⟨86, _⟩ => ⟨S20x1024x4x16, .f32⟩
  | .hbm, ⟨87, _⟩ => ⟨S20x4x1024x16, .f32⟩
  | .hbm, ⟨88, _⟩ => ⟨S20x1024x4x16, .f32⟩
  | .hbm, ⟨89, _⟩ => ⟨S20x4x1024x16, .f32⟩
  | .hbm, ⟨90, _⟩ => ⟨S20x4x1024x1024, .f32⟩
  | .hbm, ⟨91, _⟩ => ⟨S_, .f32⟩
  | .hbm, ⟨92, _⟩ => ⟨S20x4x1024x1024, .f32⟩
  | .hbm, ⟨93, _⟩ => ⟨S20x4x1024x1024, .f32⟩
  | .hbm, ⟨94, _⟩ => ⟨S_, .f32⟩
  | .hbm, ⟨95, _⟩ => ⟨S20x4x1024, .f32⟩
  | .hbm, ⟨96, _⟩ => ⟨S_, .f32⟩
  | .hbm, ⟨97, _⟩ => ⟨S20x4x1024, .f32⟩
  | .hbm, ⟨98, _⟩ => ⟨S20x4x1024, .f32⟩
  | .hbm, ⟨99, _⟩ => ⟨S20x4x1024x1, .f32⟩
  | .hbm, ⟨100, _⟩ => ⟨S20x4x1024x1024, .f32⟩
  | .hbm, ⟨101, _⟩ => ⟨S20x4x1024x1024, .f32⟩
  | .hbm, ⟨102, _⟩ => ⟨S20x4x1024x1024, .f32⟩
  | .hbm, ⟨103, _⟩ => ⟨S_, .f32⟩
  | .hbm, ⟨104, _⟩ => ⟨S20x4x1024, .f32⟩
  | .hbm, ⟨105, _⟩ => ⟨S20x4x1024x1, .f32⟩
  | .hbm, ⟨106, _⟩ => ⟨S20x4x1024x1024, .f32⟩
  | .hbm, ⟨107, _⟩ => ⟨S20x4x1024x1024, .f32⟩
  | .hbm, ⟨108, _⟩ => ⟨S20x4x1024x16, .f32⟩
  | .hbm, ⟨109, _⟩ => ⟨S20x1024x4x16, .f32⟩
  | .hbm, ⟨110, _⟩ => ⟨S20x1024x64, .f32⟩
  | .hbm, ⟨111, _⟩ => ⟨S_, .f32⟩
  | .hbm, ⟨112, _⟩ => ⟨S20x1024x64, .f32⟩
  | .hbm, ⟨113, _⟩ => ⟨S20x1024x64, .f32⟩
  | .hbm, ⟨114, _⟩ => ⟨S_, .f32⟩
  | .hbm, ⟨115, _⟩ => ⟨S20x1024x64, .f32⟩
  | .hbm, ⟨116, _⟩ => ⟨S20x1024x64, .f32⟩
  | .hbm, ⟨117, _⟩ => ⟨S20x1024x64, .f32⟩
  | .hbm, ⟨118, _⟩ => ⟨S_, .f32⟩
  | .hbm, ⟨119, _⟩ => ⟨S20x1024x64, .f32⟩
  | .hbm, ⟨120, _⟩ => ⟨S20x1024x64, .f32⟩
  | .hbm, ⟨121, _⟩ => ⟨S1x1x64, .f32⟩
  | .hbm, ⟨122, _⟩ => ⟨S20x1024x64, .f32⟩
  | .hbm, ⟨123, _⟩ => ⟨S20x1024x64, .f32⟩
  | .hbm, ⟨124, _⟩ => ⟨S1x1x64, .f32⟩
  | .hbm, ⟨125, _⟩ => ⟨S20x1024x64, .f32⟩
  | .hbm, ⟨126, _⟩ => ⟨S20x1024x64, .f32⟩
  | _, _ => ⟨S3x20x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst : Ref sig .tc := ⟨.hbm, 46, rfl⟩
abbrev main_v31 : Ref sig .tc := ⟨.hbm, 47, rfl⟩
abbrev main_v32 : Ref sig .tc := ⟨.hbm, 48, rfl⟩
abbrev main_cst_0 : Ref sig .tc := ⟨.hbm, 49, rfl⟩
abbrev main_v33 : Ref sig .tc := ⟨.hbm, 50, rfl⟩
abbrev main_cst_1 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_2 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_3 : Ref sig .tc := ⟨.hbm, 91, rfl⟩
abbrev main_v72 : Ref sig .tc := ⟨.hbm, 92, rfl⟩
abbrev main_v73 : Ref sig .tc := ⟨.hbm, 93, rfl⟩
abbrev main_cst_4 : Ref sig .tc := ⟨.hbm, 94, rfl⟩
abbrev main_v74 : Ref sig .tc := ⟨.hbm, 95, rfl⟩
abbrev main_cst_5 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_6 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_7 : Ref sig .tc := ⟨.hbm, 111, rfl⟩
abbrev main_v88 : Ref sig .tc := ⟨.hbm, 112, rfl⟩
abbrev main_v89 : Ref sig .tc := ⟨.hbm, 113, rfl⟩
abbrev main_cst_8 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_9 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩

abbrev nD : Nat := 1
abbrev τ : Topo := Topo.v7x

variable {F : FTy → Type} [FloatOps F]

class Facts₀ : Prop where
  slices_S3x20x1024x64_S1x20x1024x64_0_0_0_0 : S3x20x1024x64.Slices ![0, 0, 0, 0] S1x20x1024x64
  shapeCasts_S1x20x1024x64_S20x1024x64 : S1x20x1024x64.ShapeCasts S20x1024x64
  slices_S3x20x1024x64_S1x20x1024x64_1_0_0_0 : S3x20x1024x64.Slices ![1, 0, 0, 0] S1x20x1024x64
  slices_S3x20x1024x64_S1x20x1024x64_2_0_0_0 : S3x20x1024x64.Slices ![2, 0, 0, 0] S1x20x1024x64
  bcast_S64_S1x1x64_2 : S64.BroadcastsInDim S1x1x64 (![2] : Fin 1 → Fin S1x1x64.rank)
  bcast_S1x1x64_S20x1024x64_0_1_2 : S1x1x64.BroadcastsInDim S20x1024x64 (![0, 1, 2] : Fin 3 → Fin S20x1024x64.rank)
  shapeCasts_S20x1024x64_S20x1024x4x16 : S20x1024x64.ShapeCasts S20x1024x4x16
  transposes_S20x1024x4x16_S20x4x1024x16_0_2_1_3 : S20x1024x4x16.Transposes [0, 2, 1, 3] S20x4x1024x16
  bcast_S_S20x4x1024x1024 : S_.BroadcastsInDim S20x4x1024x1024 (![] : Fin 0 → Fin S20x4x1024x1024.rank)
  reducesTo_S20x4x1024x1024_S20x4x1024_d3 : S20x4x1024x1024.ReducesTo [3] S20x4x1024
  h_S_ : 0 < S_.numel
  bcast_S_S20x4x1024 : S_.BroadcastsInDim S20x4x1024 (![] : Fin 0 → Fin S20x4x1024.rank)
  bcast_S20x4x1024_S20x4x1024x1_0_1_2 : S20x4x1024.BroadcastsInDim S20x4x1024x1 (![0, 1, 2] : Fin 3 → Fin S20x4x1024x1.rank)
  bcast_S20x4x1024x1_S20x4x1024x1024_0_1_2_3 : S20x4x1024x1.BroadcastsInDim S20x4x1024x1024 (![0, 1, 2, 3] : Fin 4 → Fin S20x4x1024x1024.rank)
  transposes_S20x4x1024x16_S20x1024x4x16_0_2_1_3 : S20x4x1024x16.Transposes [0, 2, 1, 3] S20x1024x4x16
  shapeCasts_S20x1024x4x16_S20x1024x64 : S20x1024x4x16.ShapeCasts S20x1024x64
  bcast_S_S20x1024x64 : S_.BroadcastsInDim S20x1024x64 (![] : Fin 0 → Fin S20x1024x64.rank)
  dot_S20x4x1024x16_S20x4x1024x16_S20x4x1024x1024_3_3_2_2_01_01_wf : DotDims.WF S20x4x1024x16 S20x4x1024x16 S20x4x1024x1024 [3] [3] [2] [2] [0, 1] [0, 1]
  dot_S20x4x1024x1024_S20x4x1024x16_S20x4x1024x16_3_2_2_3_01_01_wf : DotDims.WF S20x4x1024x1024 S20x4x1024x16 S20x4x1024x16 [3] [2] [2] [3] [0, 1] [0, 1]

variable [Facts₀]

def dot_S20x4x1024x16_S20x4x1024x16_S20x4x1024x1024_3_3_2_2_01_01 : DotDims S20x4x1024x16 S20x4x1024x16 S20x4x1024x1024 where
  lhsContracting := [3]
  rhsContracting := [3]
  lhsNonContracting := [2]
  rhsNonContracting := [2]
  lhsBatch := [0, 1]
  rhsBatch := [0, 1]
  wf := dot_S20x4x1024x16_S20x4x1024x16_S20x4x1024x1024_3_3_2_2_01_01_wf
def dot_S20x4x1024x1024_S20x4x1024x16_S20x4x1024x16_3_2_2_3_01_01 : DotDims S20x4x1024x1024 S20x4x1024x16 S20x4x1024x16 where
  lhsContracting := [3]
  rhsContracting := [2]
  lhsNonContracting := [2]
  rhsNonContracting := [3]
  lhsBatch := [0, 1]
  rhsBatch := [0, 1]
  wf := dot_S20x4x1024x1024_S20x4x1024x16_S20x4x1024x16_3_2_2_3_01_01_wf

class Facts : Prop extends Facts₀ where

variable [Facts]
-- ==== Proof.Spec.lean ====
/-
  The mathematics both programs compute, stated once over plain coordinate functions.

  For one slice s of the input, the three slabs x[0,s], x[1,s], x[2,s] (each 1024 rows by 64 channels) are sent
  through per-channel affine maps (aff: X r c * w c + b c) to queries, keys and values, twice: once with the
  global weights and once with the local ones. Each of the four heads owns sixteen consecutive channels
  (col h d = 16 h + d). A head's score of row r against row k is the sixteen-term dot product of the query and
  key rows, times 1/4 (score); a row of scores is turned into weights by the usual shifted exponential over its
  sum (rowMax, expo, soft: the shift is the row's maximum, taken from -inf and compared once more with -inf, as
  both programs do); the head's output is the weighted sum of the value rows (head). The result adds the two
  branches, scales by a last per-channel weight and adds a last bias (out).

  The two programs differ in one place only: one adds the branches, the other averages them and doubles the average.
  On the extended reals 2 * (1/2 * l + 1/2 * g) = g + l holds for EVERY l, g (a positive real factor distributes over
  the sum also at the infinities, where top + bot = bot on both sides): double_mean.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- The f32 pattern of -inf, read as an extended real. -/
abbrev negInf : EReal := Ideal.ofBits .f32 0xFF800000#32
/-- The f32 pattern of 1/4, read as an extended real. -/
abbrev quarter : EReal := Ideal.ofBits .f32 0x3E800000#32
/-- The f32 pattern of 1/2. -/
abbrev half : EReal := Ideal.ofBits .f32 0x3F000000#32
/-- The f32 pattern of 2. -/
abbrev two : EReal := Ideal.ofBits .f32 0x40000000#32

/-- Channel d of head h. -/
def col (h : Fin 4) (d : Fin 16) : Fin 64 := ⟨16 * h.val + d.val, by have := h.isLt; have := d.isLt; omega⟩

theorem col_val (h : Fin 4) (d : Fin 16) : (col h d).val = 16 * h.val + d.val := rfl

/-- Every channel is a head's channel. -/
theorem exists_col (c : Fin 64) : ∃ (h : Fin 4) (d : Fin 16), c = col h d :=
  ⟨⟨c.val / 16, by have := c.isLt; omega⟩, ⟨c.val % 16, by omega⟩, Fin.ext (by show c.val = 16 * (c.val / 16) + c.val % 16; omega)⟩

/-- The per-channel affine map. -/
def aff (X : Fin 1024 → Fin 64 → EReal) (w b : Fin 64 → EReal) : Fin 1024 → Fin 64 → EReal :=
  fun r c => X r c * w c + b c

/-- Head h's score of query row r against key row k. -/
def score (Q K : Fin 1024 → Fin 64 → EReal) (h : Fin 4) (r k : Fin 1024) : EReal :=
  (∑ d : Fin 16, Q r (col h d) * K k (col h d)) * quarter

/-- The shift of a row of scores: its maximum from -inf, compared with -inf once more. -/
def rowMax (f : Fin 1024 → EReal) : EReal := max negInf (Finset.univ.fold max negInf f)

/-- The shifted exponential of a row of scores. -/
def expo (f : Fin 1024 → EReal) (k : Fin 1024) : EReal := Ideal.exp (f k - rowMax f)

/-- The row's weights. -/
def soft (f : Fin 1024 → EReal) (k : Fin 1024) : EReal := Ideal.div (expo f k) (∑ k' : Fin 1024, expo f k')

/-- Head h's output at row r, lane d: the value rows weighted by the row's weights. -/
def head (Q K V : Fin 1024 → Fin 64 → EReal) (h : Fin 4) (r : Fin 1024) (d : Fin 16) : EReal :=
  ∑ k : Fin 1024, soft (score Q K h r) k * V k (col h d)

/-- Slab p of slice s of the whole input, by row and channel. -/
def slab (x : (⟨4, ![3, 20, 1024, 64]⟩ : Shape).Idx → EReal) (p : Fin 3) (s : Fin 20) : Fin 1024 → Fin 64 → EReal :=
  fun r c => x (ix4 p s r c)

/-- A parameter vector by channel. -/
def vec (w : (⟨1, ![64]⟩ : Shape).Idx → EReal) : Fin 64 → EReal := fun c => w (ix1 c)

/-- One branch of the result at slice s, row r, head h, lane d, from the three slabs and the branch's six
    parameter vectors. -/
def branch (x : (⟨4, ![3, 20, 1024, 64]⟩ : Shape).Idx → EReal) (qw qb kw kb vw vb : (⟨1, ![64]⟩ : Shape).Idx → EReal)
    (s : Fin 20) (r : Fin 1024) (h : Fin 4) (d : Fin 16) : EReal :=
  head (aff (slab x 0 s) (vec qw) (vec qb)) (aff (slab x 1 s) (vec kw) (vec kb)) (aff (slab x 2 s) (vec vw) (vec vb)) h r d

/-- The result at slice s, row r, channel col h d: the two branches added, scaled and shifted per channel. -/
def out (x : (⟨4, ![3, 20, 1024, 64]⟩ : Shape).Idx → EReal)
    (gqw gqb gkw gkb gvw gvb lqw lqb lkw lkb lvw lvb pw pb : (⟨1, ![64]⟩ : Shape).Idx → EReal)
    (s : Fin 20) (r : Fin 1024) (h : Fin 4) (d : Fin 16) : EReal :=
  (branch x gqw gqb gkw gkb gvw gvb s r h d + branch x lqw lqb lkw lkb lvw lvb s r h d) * vec pw (col h d) + vec pb (col h d)

/-- The whole result array, index by index. -/
def G (x : (⟨4, ![3, 20, 1024, 64]⟩ : Shape).Idx → EReal)
    (gqw gqb gkw gkb gvw gvb lqw lqb lkw lkb lvw lvb pw pb : (⟨1, ![64]⟩ : Shape).Idx → EReal) :
    (⟨3, ![20, 1024, 64]⟩ : Shape).Idx → EReal :=
  fun i => out x gqw gqb gkw gkb gvw gvb lqw lqb lkw lkb lvw lvb pw pb (i 0) (i 1)
    ⟨(i 2).val / 16, by have h2 : (i 2).val < 64 := (i 2).isLt; omega⟩ ⟨(i 2).val % 16, by omega⟩

/-- G at an index given by slice, row, head and lane. -/
theorem G_apply (x : (⟨4, ![3, 20, 1024, 64]⟩ : Shape).Idx → EReal)
    (gqw gqb gkw gkb gvw gvb lqw lqb lkw lkb lvw lvb pw pb : (⟨1, ![64]⟩ : Shape).Idx → EReal)
    (s : Fin 20) (r : Fin 1024) (h : Fin 4) (d : Fin 16) :
    G x gqw gqb gkw gkb gvw gvb lqw lqb lkw lkb lvw lvb pw pb (ix3 s r (col h d))
      = out x gqw gqb gkw gkb gvw gvb lqw lqb lkw lkb lvw lvb pw pb s r h d := by
  have hh : (⟨(col h d).val / 16, by have := (col h d).isLt; omega⟩ : Fin 4) = h :=
    Fin.ext (by show (16 * h.val + d.val) / 16 = h.val; have := d.isLt; omega)
  have hd : (⟨(col h d).val % 16, by omega⟩ : Fin 16) = d :=
    Fin.ext (by show (16 * h.val + d.val) % 16 = d.val; have := d.isLt; omega)
  show out x gqw gqb gkw gkb gvw gvb lqw lqb lkw lkb lvw lvb pw pb s r
    ⟨(col h d).val / 16, _⟩ ⟨(col h d).val % 16, _⟩ = _
  rw [hh, hd]

/-! ## The patterns 2 and 1/2, and the one law that joins the two programs -/

theorem two_eq : two = ((2 : ℝ) : EReal) := by
  simp [two, Ideal.ofBits, Ideal.ieee]
  rw [← EReal.coe_mul]
  exact congrArg _ (by norm_num)

theorem half_eq : half = (((1 : ℝ) / 2 : ℝ) : EReal) := by
  simp [half, Ideal.ofBits, Ideal.ieee]
  rw [← EReal.coe_mul]
  exact congrArg _ (by norm_num)

/-- Doubling the mean of two extended reals gives their sum, at the infinities too: the factor 2 is a positive
    real, so it distributes over the sum whatever the summands, and 2 * (1/2) = 1. -/
theorem double_mean (l g : EReal) : two * (half * l + half * g) = g + l := by
  rw [two_eq, half_eq,
    EReal.left_distrib_of_nonneg_of_ne_top (EReal.coe_nonneg.mpr (by norm_num)) (EReal.coe_ne_top _),
    ← mul_assoc, ← mul_assoc, ← EReal.coe_mul]
  have h1 : ((2 : ℝ) * (1 / 2) : ℝ) = 1 := by norm_num
  rw [h1, EReal.coe_one, one_mul, one_mul, add_comm]

end Cert.Attn

end
-- ==== Proof.KernelBody.lean ====
/-
  The kernel body's value as ONE structured term. The printed body computes, for each of the two branches, the
  three per-channel affine maps of the slice's slabs, then per head: the two sixteen-channel slices' product
  (contracting the channels), the scaling by 1/4, the row maximum, the shifted exponential, its row sum, the
  quotient, and the product with the values' slice; the four heads' outputs are laid side by side, the two
  branches added, scaled and shifted per channel. The definitions below say exactly that, operation for
  operation, so that each building block can be read at an index once and used for all eight heads; body_eq says
  the stored value IS this term (the two spell the same operations, so it holds by unfolding).
-/
import proofs.«171287_j12481174962635_1_alg».proof.Proof.Gen.KernelIdeal.Frame

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

/-- A parameter vector laid along every row of a [1024, 64] block. -/
def rows (w : Vec F S64 .f32) : FVec F S1024x64 .f32 :=
  broadcastTo S1024x64 (shapeCast S1x64 w shapeCasts_S64_S1x64) broadcasts_S1x64_S1024x64

/-- The per-channel affine map of a block. -/
def kAff (x : FVec F S1024x64 .f32) (w b : Vec F S64 .f32) : FVec F S1024x64 .f32 :=
  addf (mulf x (rows w)) (rows b)

/-- One head's scores: the product of the queries' and keys' sixteen-channel slices, times 1/4. -/
def kScores (off : Fin 2 → Nat) (hs : S1024x64.Slices off S1024x16) (q k : FVec F S1024x64 .f32) : FVec F S1024x1024 .f32 :=
  mulf (matmul dot_S1024x16_S1024x16_S1024x1024_1_1_0_0_n_n none
      (truncf .bf16 (extractStridedSlice S1024x16 off q hs) bitsLt_bf16_f32)
      (truncf .bf16 (extractStridedSlice S1024x16 off k hs) bitsLt_bf16_f32)
      (constant S1024x1024 .f32 0x00000000#32))
    (broadcast S1024x1024 (Scalar.ofBits .f32 0x3E800000#32))

/-- A column vector laid along every column of a [1024, 1024] block. -/
def cols (v : FVec F S1024 .f32) : FVec F S1024x1024 .f32 :=
  broadcastTo S1024x1024 (shapeCast S1024x1 v shapeCasts_S1024_S1024x1) broadcasts_S1024x1_S1024x1024

/-- The row maxima of a block of scores, from -inf, compared with -inf once more. -/
def kRowMax (sc : FVec F S1024x1024 .f32) : FVec F S1024 .f32 :=
  maximumf (broadcast S1024 (Scalar.ofBits .f32 0xFF800000#32))
    (multiReduction .maximumf [1] S1024 sc 0xFF800000#32 reduces_S1024x1024_S1024 (.inl rfl) rfl)

/-- The shifted exponentials of a block of scores. -/
def kExp (sc : FVec F S1024x1024 .f32) : FVec F S1024x1024 .f32 :=
  exp (subf sc (cols (kRowMax sc)))

/-- The row sums of a block. -/
def kRowSum (e : FVec F S1024x1024 .f32) : FVec F S1024 .f32 :=
  multiReduction .add [1] S1024 e 0x00000000#32 reduces_S1024x1024_S1024 (.inl rfl) rfl

/-- The weights: each entry over its row's sum. -/
def kSoft (e : FVec F S1024x1024 .f32) : FVec F S1024x1024 .f32 :=
  divf e (cols (kRowSum e))

/-- The weights times the values' sixteen-channel slice. -/
def kWeighted (off : Fin 2 → Nat) (hs : S1024x64.Slices off S1024x16) (p : FVec F S1024x1024 .f32) (v : FVec F S1024x64 .f32) :
    FVec F S1024x16 .f32 :=
  matmul dot_S1024x1024_S1024x16_S1024x16_1_0_0_1_n_n none (truncf .bf16 p bitsLt_bf16_f32)
    (truncf .bf16 (extractStridedSlice S1024x16 off v hs) bitsLt_bf16_f32) (constant S1024x16 .f32 0x00000000#32)

/-- One head's output. -/
def kHead (off : Fin 2 → Nat) (hs : S1024x64.Slices off S1024x16) (q k v : FVec F S1024x64 .f32) : FVec F S1024x16 .f32 :=
  kWeighted off hs (kSoft (kExp (kScores off hs q k))) v

/-- The four heads' outputs side by side. -/
def kAttn (q k v : FVec F S1024x64 .f32) : FVec F S1024x64 .f32 :=
  concatenate S1024x64 1 [⟨S1024x16, kHead ![0, 0] slices_S1024x64_o0_0_S1024x16 q k v⟩,
    ⟨S1024x16, kHead ![0, 16] slices_S1024x64_o0_16_S1024x16 q k v⟩,
    ⟨S1024x16, kHead ![0, 32] slices_S1024x64_o0_32_S1024x16 q k v⟩,
    ⟨S1024x16, kHead ![0, 48] slices_S1024x64_o0_48_S1024x16 q k v⟩]
    concatenates_S1024x16_S1024x16_S1024x16_S1024x16_S1024x64_d1

/-- A loaded slab as a [1024, 64] block. -/
def kSlab (v : Vec F S1x1x1024x64 .f32) : FVec F S1024x64 .f32 :=
  shapeCast S1024x64 v shapeCasts_S1x1x1024x64_S1024x64

/-- The stored value, from the three loaded slabs and the fourteen loaded parameter vectors. -/
def kBody (q k v : Vec F S1x1x1024x64 .f32) (gqw gqb gkw gkb gvw gvb lqw lqb lkw lkb lvw lvb pw pb : Vec F S64 .f32) :
    FVec F S1x1024x64 .f32 :=
  shapeCast S1x1024x64
    (addf (mulf (addf (kAttn (kAff (kSlab q) gqw gqb) (kAff (kSlab k) gkw gkb) (kAff (kSlab v) gvw gvb))
                      (kAttn (kAff (kSlab q) lqw lqb) (kAff (kSlab k) lkw lkb) (kAff (kSlab v) lvw lvb)))
                (rows pw)) (rows pb))
    shapeCasts_S1024x64_S1x1024x64

/-- What the body leaves in the output window's buffer is one piece, the whole buffer, holding kBody of the loads. -/
theorem out_eq (x0 : Vec F S3x1x1024x64 .f32) (x1 x2 x3 x4 x5 x6 x7 x8 x9 x10 x11 x12 x13 x14 : Vec F S64 .f32) :
    out0_15 x0 x1 x2 x3 x4 x5 x6 x7 x8 x9 x10 x11 x12 x13 x14
      = View.canon [⟨r0_4, kBody (View.ld x0 r0_0) (View.ld x0 r0_1) (View.ld x0 r0_2) (View.ld x1 r0_3) (View.ld x2 r0_3)
          (View.ld x3 r0_3) (View.ld x4 r0_3) (View.ld x5 r0_3) (View.ld x6 r0_3) (View.ld x7 r0_3) (View.ld x8 r0_3)
          (View.ld x9 r0_3) (View.ld x10 r0_3) (View.ld x11 r0_3) (View.ld x12 r0_3) (View.ld x13 r0_3) (View.ld x14 r0_3)⟩] := rfl

end Cert.KernelIdeal.Body

end
-- ==== Proof.KernelValue.lean ====
/-
  The kernel body's value read at an index.
-/
import proofs.«171287_j12481174962635_1_alg».proof.Proof.KernelBody
import proofs.«171287_j12481174962635_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.TcCoe Idealize.SL.Sem
open Idealize.ShloMosaic.ValueIdx Cert.Attn

/-- A loaded slab by row and channel. -/
def blockSlab (q : Vec Ideal S1x1x1024x64 .f32) : Fin 1024 → Fin 64 → EReal := fun r c => q (ix4 0 0 r c)

/-- A block by row and channel. -/
def blk (x : FVec Ideal S1024x64 .f32) : Fin 1024 → Fin 64 → EReal := fun r c => x (ix2 r c)

/-- A parameter vector laid along every row reads, at (r, c), the vector at c. -/
theorem rows_apply (w : Vec Ideal S64 .f32) (r : Fin 1024) (c : Fin 64) : rows w (ix2 r c) = vec w c := by
  unfold rows
  refine (broadcastTo_1b_ab_apply _ _ r c).trans ?_
  exact shapeCast_a_1a_apply _ _ 0 c

/-- The affine map at (r, c): the entry times the weight at c plus the bias at c. -/
theorem kAff_apply (x : FVec Ideal S1024x64 .f32) (w b : Vec Ideal S64 .f32) (r : Fin 1024) (c : Fin 64) :
    kAff x w b (ix2 r c) = x (ix2 r c) * vec w c + vec b c := by
  unfold kAff
  rw [addf_apply, mulf_apply, rows_apply, rows_apply]

/-- A loaded slab viewed as a block reads, at (r, c), the slab at (0, 0, r, c). -/
theorem kSlab_apply (q : Vec Ideal S1x1x1024x64 .f32) (r : Fin 1024) (c : Fin 64) :
    kSlab q (ix2 r c) = blockSlab q r c := by
  unfold kSlab blockSlab
  refine shapeCast_apply _ _ _ (ix4 0 0 r c) ?_
  rw [Shape.rowMajor_val_four, Shape.rowMajor_val_two]
  show ((0 * 1 + 0) * 1024 + r.val) * 64 + c.val = r.val * 64 + c.val
  omega

/-- A column vector laid along every column reads, at (r, k), the vector at r. -/
theorem cols_apply (v : FVec Ideal S1024 .f32) (r k : Fin 1024) : cols v (ix2 r k) = v (ix1 r) := by
  unfold cols
  refine (broadcastTo_apply _ _ (ix2 r k) (ix2 r (0 : Fin 1)) (fun a => ?_)).trans ?_
  · match a with
    | ⟨0, _⟩ => rfl
    | ⟨1, _⟩ => rfl
  · refine shapeCast_apply _ _ _ (ix1 r) ?_
    rw [Shape.rowMajor_val_two, Shape.rowMajor_val_one]
    show r.val = r.val * 1 + 0
    omega

/-- The source index of a row reduction: the row's index with the column inserted. -/
theorem lift_row (r : Fin 1024) (k : Fin 1024) :
    reduces_S1024x1024_S1024.lift (ix1 r) k = ix2 r k := by
  funext a
  match a with
  | ⟨0, _⟩ => rfl
  | ⟨1, _⟩ => rfl

/-- The row sum at r: the sum of the row's entries. -/
theorem kRowSum_apply (e : FVec Ideal S1024x1024 .f32) (r : Fin 1024) :
    kRowSum e (ix1 r) = ∑ k : Fin 1024, e (ix2 r k) := by
  unfold kRowSum
  refine (Ideal.multiReduction_add_single e _ reduces_S1024x1024_S1024 (.inl rfl) rfl (ix1 r)).trans ?_
  exact Finset.sum_congr rfl fun k _ => congrArg e (lift_row r k)

/-- The row maximum at r: the maximum of the row's entries from -inf, compared with -inf once more. -/
theorem kRowMax_apply (sc : FVec Ideal S1024x1024 .f32) (r : Fin 1024) :
    kRowMax sc (ix1 r) = rowMax (fun k => sc (ix2 r k)) := by
  unfold kRowMax rowMax
  rw [maximumf_apply, broadcast_apply]
  refine congrArg (max _) ?_
  refine (Ideal.multiReduction_maximumf_single sc _ reduces_S1024x1024_S1024 (.inl rfl) rfl (ix1 r)).trans ?_
  refine congrArg (Finset.univ.fold max _) ?_
  funext k
  exact congrArg sc (lift_row r k)

/-- The shifted exponential at (r, k): the exponential of the entry less the row's maximum. -/
theorem kExp_apply (sc : FVec Ideal S1024x1024 .f32) (r k : Fin 1024) :
    kExp sc (ix2 r k) = expo (fun k' => sc (ix2 r k')) k := by
  unfold kExp expo
  show Ideal.exp (subf sc (cols (kRowMax sc)) (ix2 r k)) = _
  rw [subf_apply, cols_apply, kRowMax_apply]

/-- The weight at (r, k): the shifted exponential over the sum of the row's shifted exponentials. -/
theorem kSoft_apply (sc : FVec Ideal S1024x1024 .f32) (r k : Fin 1024) :
    kSoft (kExp sc) (ix2 r k) = soft (fun k' => sc (ix2 r k')) k := by
  unfold kSoft soft
  rw [divf_apply, cols_apply, kRowSum_apply, kExp_apply]
  exact congrArg (Ideal.div _) (Finset.sum_congr rfl fun k' _ => kExp_apply sc r k')

/-- The first product contracts one axis of sixteen channels. -/
theorem dotQK_rank : dot_S1024x16_S1024x16_S1024x1024_1_1_0_0_n_n.contr.rank = 1 := rfl
/-- That axis has sixteen coordinates. -/
theorem dotQK_size : dot_S1024x16_S1024x16_S1024x1024_1_1_0_0_n_n.contr.size ⟨0, by rw [dotQK_rank]; omega⟩ = 16 := rfl

/-- The first product's left operand is read at the result's row … -/
theorem dotQK_lhs0 (j : S1024x1024.Idx) (κ : dot_S1024x16_S1024x16_S1024x1024_1_1_0_0_n_n.contr.Idx) :
    (dot_S1024x16_S1024x16_S1024x1024_1_1_0_0_n_n.lhsIdx j κ 0).val = (j 0).val := by
  simp [DotDims.lhsIdx, dot_S1024x16_S1024x16_S1024x1024_1_1_0_0_n_n]; rfl
/-- … and the contracted channel; -/
theorem dotQK_lhs1 (j : S1024x1024.Idx) (κ : dot_S1024x16_S1024x16_S1024x1024_1_1_0_0_n_n.contr.Idx) :
    (dot_S1024x16_S1024x16_S1024x1024_1_1_0_0_n_n.lhsIdx j κ 1).val = (κ ⟨0, by rw [dotQK_rank]; omega⟩).val := by
  simp [DotDims.lhsIdx, dot_S1024x16_S1024x16_S1024x1024_1_1_0_0_n_n]; rfl
/-- its right operand at the result's column … -/
theorem dotQK_rhs0 (j : S1024x1024.Idx) (κ : dot_S1024x16_S1024x16_S1024x1024_1_1_0_0_n_n.contr.Idx) :
    (dot_S1024x16_S1024x16_S1024x1024_1_1_0_0_n_n.rhsIdx j κ 0).val = (j 1).val := by
  simp [DotDims.rhsIdx, dot_S1024x16_S1024x16_S1024x1024_1_1_0_0_n_n]; rfl
/-- … and the contracted channel. -/
theorem dotQK_rhs1 (j : S1024x1024.Idx) (κ : dot_S1024x16_S1024x16_S1024x1024_1_1_0_0_n_n.contr.Idx) :
    (dot_S1024x16_S1024x16_S1024x1024_1_1_0_0_n_n.rhsIdx j κ 1).val = (κ ⟨0, by rw [dotQK_rank]; omega⟩).val := by
  simp [DotDims.rhsIdx, dot_S1024x16_S1024x16_S1024x1024_1_1_0_0_n_n]; rfl

/-- The contraction index of the first product whose one coordinate is channel d. -/
abbrev chanQK (d : Fin 16) : dot_S1024x16_S1024x16_S1024x1024_1_1_0_0_n_n.contr.Idx :=
  (contrEquiv1 dot_S1024x16_S1024x16_S1024x1024_1_1_0_0_n_n 16 dotQK_rank dotQK_size).symm d

/-- At result entry (r, k) and channel d the first product reads the queries' slice at (r, d) … -/
theorem dotQK_lhsIdx (r k : Fin 1024) (d : Fin 16) :
    dot_S1024x16_S1024x16_S1024x1024_1_1_0_0_n_n.lhsIdx (ix2 r k) (chanQK d) = ix2 r d := by
  funext a
  match a with
  | ⟨0, _⟩ => exact Fin.ext (dotQK_lhs0 (ix2 r k) (chanQK d))
  | ⟨1, _⟩ =>
    exact Fin.ext ((dotQK_lhs1 (ix2 r k) (chanQK d)).trans
      (contrEquiv1_symm_val dot_S1024x16_S1024x16_S1024x1024_1_1_0_0_n_n 16 dotQK_rank dotQK_size d))

/-- … and the keys' slice at (k, d). -/
theorem dotQK_rhsIdx (r k : Fin 1024) (d : Fin 16) :
    dot_S1024x16_S1024x16_S1024x1024_1_1_0_0_n_n.rhsIdx (ix2 r k) (chanQK d) = ix2 k d := by
  funext a
  match a with
  | ⟨0, _⟩ => exact Fin.ext (dotQK_rhs0 (ix2 r k) (chanQK d))
  | ⟨1, _⟩ =>
    exact Fin.ext ((dotQK_rhs1 (ix2 r k) (chanQK d)).trans
      (contrEquiv1_symm_val dot_S1024x16_S1024x16_S1024x1024_1_1_0_0_n_n 16 dotQK_rank dotQK_size d))

/-- The sixteen-channel slice at offset 16 h reads channel col h d. -/
theorem headSlice_apply (o : Nat) (hs : S1024x64.Slices ![0, o] S1024x16) (h : Fin 4) (ho : o = 16 * h.val)
    (x : FVec Ideal S1024x64 .f32) (r : Fin 1024) (d : Fin 16) :
    extractStridedSlice S1024x16 ![0, o] x hs (ix2 r d) = blk x r (col h d) :=
  slice2_axis1_apply o x hs r d (col h d) (by rw [col_val, ho])

/-- One head's scores at (r, k): the sixteen-term dot product of the query and key rows, times 1/4. -/
theorem kScores_apply (o : Nat) (hs : S1024x64.Slices ![0, o] S1024x16) (h : Fin 4) (ho : o = 16 * h.val)
    (q k : FVec Ideal S1024x64 .f32) (r k' : Fin 1024) :
    kScores ![0, o] hs q k (ix2 r k') = score (blk q) (blk k) h r k' := by
  unfold kScores score
  rw [mulf_apply, broadcast_apply]
  refine congrArg (· * quarter) ?_
  refine (Ideal.matmul_constant_zero_apply dot_S1024x16_S1024x16_S1024x1024_1_1_0_0_n_n none _ _ (ix2 r k')).trans ?_
  refine (Equiv.sum_comp (contrEquiv1 dot_S1024x16_S1024x16_S1024x1024_1_1_0_0_n_n 16 dotQK_rank dotQK_size).symm _).symm.trans ?_
  refine Finset.sum_congr rfl fun d _ => ?_
  refine congrArg₂ (· * ·) ?_ ?_
  · exact (congrArg (extractStridedSlice S1024x16 ![0, o] q hs) (dotQK_lhsIdx r k' d)).trans (headSlice_apply o hs h ho q r d)
  · exact (congrArg (extractStridedSlice S1024x16 ![0, o] k hs) (dotQK_rhsIdx r k' d)).trans (headSlice_apply o hs h ho k k' d)

/-- The second product contracts one axis of 1024 key rows. -/
theorem dotPV_rank : dot_S1024x1024_S1024x16_S1024x16_1_0_0_1_n_n.contr.rank = 1 := rfl
/-- That axis has 1024 coordinates. -/
theorem dotPV_size : dot_S1024x1024_S1024x16_S1024x16_1_0_0_1_n_n.contr.size ⟨0, by rw [dotPV_rank]; omega⟩ = 1024 := rfl

/-- The second product's left operand is read at the result's row … -/
theorem dotPV_lhs0 (j : S1024x16.Idx) (κ : dot_S1024x1024_S1024x16_S1024x16_1_0_0_1_n_n.contr.Idx) :
    (dot_S1024x1024_S1024x16_S1024x16_1_0_0_1_n_n.lhsIdx j κ 0).val = (j 0).val := by
  simp [DotDims.lhsIdx, dot_S1024x1024_S1024x16_S1024x16_1_0_0_1_n_n]; rfl
/-- … and the contracted key row; -/
theorem dotPV_lhs1 (j : S1024x16.Idx) (κ : dot_S1024x1024_S1024x16_S1024x16_1_0_0_1_n_n.contr.Idx) :
    (dot_S1024x1024_S1024x16_S1024x16_1_0_0_1_n_n.lhsIdx j κ 1).val = (κ ⟨0, by rw [dotPV_rank]; omega⟩).val := by
  simp [DotDims.lhsIdx, dot_S1024x1024_S1024x16_S1024x16_1_0_0_1_n_n]; rfl
/-- its right operand at the contracted key row … -/
theorem dotPV_rhs0 (j : S1024x16.Idx) (κ : dot_S1024x1024_S1024x16_S1024x16_1_0_0_1_n_n.contr.Idx) :
    (dot_S1024x1024_S1024x16_S1024x16_1_0_0_1_n_n.rhsIdx j κ 0).val = (κ ⟨0, by rw [dotPV_rank]; omega⟩).val := by
  simp [DotDims.rhsIdx, dot_S1024x1024_S1024x16_S1024x16_1_0_0_1_n_n]; rfl
/-- … and the result's lane. -/
theorem dotPV_rhs1 (j : S1024x16.Idx) (κ : dot_S1024x1024_S1024x16_S1024x16_1_0_0_1_n_n.contr.Idx) :
    (dot_S1024x1024_S1024x16_S1024x16_1_0_0_1_n_n.rhsIdx j κ 1).val = (j 1).val := by
  simp [DotDims.rhsIdx, dot_S1024x1024_S1024x16_S1024x16_1_0_0_1_n_n]; rfl

/-- The contraction index of the second product whose one coordinate is key row k. -/
abbrev rowPV (k : Fin 1024) : dot_S1024x1024_S1024x16_S1024x16_1_0_0_1_n_n.contr.Idx :=
  (contrEquiv1 dot_S1024x1024_S1024x16_S1024x16_1_0_0_1_n_n 1024 dotPV_rank dotPV_size).symm k

/-- At result entry (r, d) and key row k the second product reads the weights at (r, k) … -/
theorem dotPV_lhsIdx (r : Fin 1024) (d : Fin 16) (k : Fin 1024) :
    dot_S1024x1024_S1024x16_S1024x16_1_0_0_1_n_n.lhsIdx (ix2 r d) (rowPV k) = ix2 r k := by
  funext a
  match a with
  | ⟨0, _⟩ => exact Fin.ext (dotPV_lhs0 (ix2 r d) (rowPV k))
  | ⟨1, _⟩ =>
    exact Fin.ext ((dotPV_lhs1 (ix2 r d) (rowPV k)).trans
      (contrEquiv1_symm_val dot_S1024x1024_S1024x16_S1024x16_1_0_0_1_n_n 1024 dotPV_rank dotPV_size k))

/-- … and the values' slice at (k, d). -/
theorem dotPV_rhsIdx (r : Fin 1024) (d : Fin 16) (k : Fin 1024) :
    dot_S1024x1024_S1024x16_S1024x16_1_0_0_1_n_n.rhsIdx (ix2 r d) (rowPV k) = ix2 k d := by
  funext a
  match a with
  | ⟨0, _⟩ =>
    exact Fin.ext ((dotPV_rhs0 (ix2 r d) (rowPV k)).trans
      (contrEquiv1_symm_val dot_S1024x1024_S1024x16_S1024x16_1_0_0_1_n_n 1024 dotPV_rank dotPV_size k))
  | ⟨1, _⟩ => exact Fin.ext (dotPV_rhs1 (ix2 r d) (rowPV k))

/-- The weights times the values' slice at (r, d): the sum over the key rows. -/
theorem kWeighted_apply (o : Nat) (hs : S1024x64.Slices ![0, o] S1024x16) (h : Fin 4) (ho : o = 16 * h.val)
    (p : FVec Ideal S1024x1024 .f32) (v : FVec Ideal S1024x64 .f32) (r : Fin 1024) (d : Fin 16) :
    kWeighted ![0, o] hs p v (ix2 r d) = ∑ k : Fin 1024, p (ix2 r k) * blk v k (col h d) := by
  unfold kWeighted
  refine (Ideal.matmul_constant_zero_apply dot_S1024x1024_S1024x16_S1024x16_1_0_0_1_n_n none _ _ (ix2 r d)).trans ?_
  refine (Equiv.sum_comp (contrEquiv1 dot_S1024x1024_S1024x16_S1024x16_1_0_0_1_n_n 1024 dotPV_rank dotPV_size).symm _).symm.trans ?_
  refine Finset.sum_congr rfl fun k _ => ?_
  refine congrArg₂ (· * ·) ?_ ?_
  · exact congrArg p (dotPV_lhsIdx r d k)
  · exact (congrArg (extractStridedSlice S1024x16 ![0, o] v hs) (dotPV_rhsIdx r d k)).trans (headSlice_apply o hs h ho v k d)

/-- One head's output at (r, d). -/
theorem kHead_apply (o : Nat) (hs : S1024x64.Slices ![0, o] S1024x16) (h : Fin 4) (ho : o = 16 * h.val)
    (q k v : FVec Ideal S1024x64 .f32) (r : Fin 1024) (d : Fin 16) :
    kHead ![0, o] hs q k v (ix2 r d) = head (blk q) (blk k) (blk v) h r d := by
  unfold kHead head
  refine (kWeighted_apply o hs h ho _ v r d).trans ?_
  refine Finset.sum_congr rfl fun k' _ => ?_
  refine congrArg (· * blk v k' (col h d)) ?_
  refine (kSoft_apply (kScores ![0, o] hs q k) r k').trans ?_
  exact congrArg (fun f => soft f k') (funext fun k'' => kScores_apply o hs h ho q k r k'')

/-- Lane d of piece 0 of the four heads laid side by side is channel col 0 d. -/
theorem kAttn_apply_0 (q k v : FVec Ideal S1024x64 .f32) (r : Fin 1024) (d : Fin 16) :
    kAttn q k v (ix2 r (col 0 d)) = head (blk q) (blk k) (blk v) 0 r d := by
  unfold kAttn
  refine (concatenate_apply_piece _ _ _ (ix2 r (col 0 d)) 0 (by show 0 < 4; omega) S1024x16 _ rfl rfl 0 rfl (ix2 r d) ?_ ?_).trans ?_
  · intro b hb
    match b with
    | ⟨0, _⟩ => rfl
    | ⟨1, _⟩ => exact absurd rfl hb
  · show 0 + d.val = 16 * 0 + d.val
    omega
  · exact kHead_apply 0 slices_S1024x64_o0_0_S1024x16 0 rfl q k v r d

/-- Lane d of piece 1 is channel col 1 d. -/
theorem kAttn_apply_1 (q k v : FVec Ideal S1024x64 .f32) (r : Fin 1024) (d : Fin 16) :
    kAttn q k v (ix2 r (col 1 d)) = head (blk q) (blk k) (blk v) 1 r d := by
  unfold kAttn
  refine (concatenate_apply_piece _ _ _ (ix2 r (col 1 d)) 1 (by show 1 < 4; omega) S1024x16 _ rfl rfl 16 rfl (ix2 r d) ?_ ?_).trans ?_
  · intro b hb
    match b with
    | ⟨0, _⟩ => rfl
    | ⟨1, _⟩ => exact absurd rfl hb
  · show 16 + d.val = 16 * 1 + d.val
    omega
  · exact kHead_apply 16 slices_S1024x64_o0_16_S1024x16 1 rfl q k v r d

/-- Lane d of piece 2 is channel col 2 d. -/
theorem kAttn_apply_2 (q k v : FVec Ideal S1024x64 .f32) (r : Fin 1024) (d : Fin 16) :
    kAttn q k v (ix2 r (col 2 d)) = head (blk q) (blk k) (blk v) 2 r d := by
  unfold kAttn
  refine (concatenate_apply_piece _ _ _ (ix2 r (col 2 d)) 2 (by show 2 < 4; omega) S1024x16 _ rfl rfl 32 rfl (ix2 r d) ?_ ?_).trans ?_
  · intro b hb
    match b with
    | ⟨0, _⟩ => rfl
    | ⟨1, _⟩ => exact absurd rfl hb
  · show 32 + d.val = 16 * 2 + d.val
    omega
  · exact kHead_apply 32 slices_S1024x64_o0_32_S1024x16 2 rfl q k v r d

/-- Lane d of piece 3 is channel col 3 d. -/
theorem kAttn_apply_3 (q k v : FVec Ideal S1024x64 .f32) (r : Fin 1024) (d : Fin 16) :
    kAttn q k v (ix2 r (col 3 d)) = head (blk q) (blk k) (blk v) 3 r d := by
  unfold kAttn
  refine (concatenate_apply_piece _ _ _ (ix2 r (col 3 d)) 3 (by show 3 < 4; omega) S1024x16 _ rfl rfl 48 rfl (ix2 r d) ?_ ?_).trans ?_
  · intro b hb
    match b with
    | ⟨0, _⟩ => rfl
    | ⟨1, _⟩ => exact absurd rfl hb
  · show 48 + d.val = 16 * 3 + d.val
    omega
  · exact kHead_apply 48 slices_S1024x64_o0_48_S1024x16 3 rfl q k v r d

/-- The four heads side by side at row r, channel col h d: head h's output at (r, d). -/
theorem kAttn_apply (q k v : FVec Ideal S1024x64 .f32) (r : Fin 1024) (h : Fin 4) (d : Fin 16) :
    kAttn q k v (ix2 r (col h d)) = head (blk q) (blk k) (blk v) h r d :=
  match h with
  | ⟨0, _⟩ => kAttn_apply_0 q k v r d
  | ⟨1, _⟩ => kAttn_apply_1 q k v r d
  | ⟨2, _⟩ => kAttn_apply_2 q k v r d
  | ⟨3, _⟩ => kAttn_apply_3 q k v r d

/-- The affine map of a loaded slab, by row and channel. -/
theorem blk_kAff_kSlab (q : Vec Ideal S1x1x1024x64 .f32) (w b : Vec Ideal S64 .f32) :
    blk (kAff (kSlab q) w b) = aff (blockSlab q) (vec w) (vec b) := by
  funext r c
  show kAff (kSlab q) w b (ix2 r c) = blockSlab q r c * vec w c + vec b c
  rw [kAff_apply, kSlab_apply]

/-- The stored value at row r, channel col h d: the two branches' heads over the affine maps of the loaded slabs,
    added, scaled and shifted per channel. -/
theorem kBody_apply (q k v : Vec Ideal S1x1x1024x64 .f32)
    (gqw gqb gkw gkb gvw gvb lqw lqb lkw lkb lvw lvb pw pb : Vec Ideal S64 .f32) (r : Fin 1024) (h : Fin 4) (d : Fin 16) :
    kBody q k v gqw gqb gkw gkb gvw gvb lqw lqb lkw lkb lvw lvb pw pb (ix3 0 r (col h d))
      = (head (aff (blockSlab q) (vec gqw) (vec gqb)) (aff (blockSlab k) (vec gkw) (vec gkb)) (aff (blockSlab v) (vec gvw) (vec gvb)) h r d
          + head (aff (blockSlab q) (vec lqw) (vec lqb)) (aff (blockSlab k) (vec lkw) (vec lkb)) (aff (blockSlab v) (vec lvw) (vec lvb)) h r d)
        * vec pw (col h d) + vec pb (col h d) := by
  unfold kBody
  refine (shapeCast_ab_1ab_apply _ _ 0 r (col h d)).trans ?_
  rw [addf_apply, mulf_apply, addf_apply, rows_apply, rows_apply, kAttn_apply, kAttn_apply,
    blk_kAff_kSlab, blk_kAff_kSlab, blk_kAff_kSlab, blk_kAff_kSlab, blk_kAff_kSlab, blk_kAff_kSlab]

end Cert.KernelIdeal.Body

end
-- ==== Proof.KernelArray.lean ====
/-
  From what each grid point writes to the whole result array. Grid point t works on slice t: it loads the three
  slabs of slice t (block (0, t, 0, 0) of the input, all three slabs at once) and the fourteen parameter vectors
  whole, and writes block t of the output, which is slice t of the result. Read at row r and channel col h d, what
  it writes is the specification's out at slice t (the body's value at an index, with each loaded block read back
  as the array at the block's place). The twenty blocks tile the result array, so the array ends as the
  specification's G of the argument arrays.
-/
import proofs.«171287_j12481174962635_1_alg».proof.Proof.Gen.KernelIdeal.Value
import proofs.«171287_j12481174962635_1_alg».proof.Proof.KernelValue
import proofs.«171287_j12481174962635_1_alg».proof.Proof.Spec

noncomputable section

namespace Cert.KernelIdeal.Whole

open Cert.KernelIdeal Cert.KernelIdeal.Gen Cert.KernelIdeal.Body Idealize.ShloMosaic Idealize.ShloMosaic.TcCoe Idealize.SL.Sem
open Idealize.ShloMosaic.Pipeline (Dat)
open Idealize.ShloMosaic.ValueIdx Cert.Attn

variable (m : (ℓ : Loc nD τ sig) → Buf (Elt Ideal) ℓ) (ρ : Dev nD → PrngReg)

theorem hz1 : (![0] : Fin 1 → Nat) = fun _ => 0 := funext fun a => by fin_cases a <;> rfl
theorem hz3 : (![0, 0, 0] : Fin 3 → Nat) = fun _ => 0 := funext fun a => by fin_cases a <;> rfl

/-- The grid has twenty points. -/
theorem hN : cfg0.N = 20 := by decide

/-- The slice a grid point works on. -/
def sl (t : Fin cfg0.N) : Fin 20 := ⟨t.val, Nat.lt_of_lt_of_eq t.isLt hN⟩

/-- The index maps, decided over the grid: the input's block is (0, t, 0, 0), the output's (t, 0, 0). -/
theorem idx_facts : ∀ t : Fin cfg0.N, win0_0.index t (0 : Fin 4) = 0 ∧ win0_0.index t (1 : Fin 4) = t.val
    ∧ win0_0.index t (2 : Fin 4) = 0 ∧ win0_0.index t (3 : Fin 4) = 0
    ∧ win0_15.index t (0 : Fin 3) = t.val ∧ win0_15.index t (1 : Fin 3) = 0 ∧ win0_15.index t (2 : Fin 3) = 0 :=
  (by decide +kernel : ∀ t : Fin grid0.N, _)

/-- The input's block at a point, at its literal type. -/
abbrev xblk (c : Dev nD) (t : Fin cfg0.N) : Vec Ideal S3x1x1024x64 .f32 := iblk m c 0 t

/-- The input's block at point t, at slab p, row r, channel cc, is the input array at (p, t, r, cc). -/
theorem xblk_apply (c : Dev nD) (t : Fin cfg0.N) (p : Fin 3) (r : Fin 1024) (cc : Fin 64) :
    xblk m c t (ix4 p 0 r cc) = V m c main_arg0 (ix4 p (sl t) r cc) := by
  obtain ⟨e0, e1, e2, e3, -⟩ := idx_facts t
  show V m c main_arg0 (((cfg0.win 0).blk t).view.emb (ix4 p 0 r cc)) = V m c main_arg0 (ix4 p (sl t) r cc)
  refine congrArg _ (funext fun a => Fin.ext ?_)
  match a with
  | ⟨0, _⟩ => show win0_0.index t (0 : Fin 4) * 3 + 1 * p.val = p.val; omega
  | ⟨1, _⟩ => show win0_0.index t (1 : Fin 4) * 1 + 1 * 0 = t.val; omega
  | ⟨2, _⟩ => show win0_0.index t (2 : Fin 4) * 1024 + 1 * r.val = r.val; omega
  | ⟨3, _⟩ => show win0_0.index t (3 : Fin 4) * 64 + 1 * cc.val = cc.val; omega

/-- The three loads of the body read the block's three slabs. -/
theorem ld_slab0 (X : Vec Ideal S3x1x1024x64 .f32) : blockSlab (View.ld X r0_0) = fun r cc => X (ix4 0 0 r cc) := by
  funext r cc
  show X (r0_0.emb (ix4 0 0 r cc)) = X (ix4 0 0 r cc)
  refine congrArg _ (funext fun a => Fin.ext ?_)
  match a with
  | ⟨0, _⟩ => show 0 + 1 * 0 = 0; rfl
  | ⟨1, _⟩ => show 0 + 1 * 0 = 0; rfl
  | ⟨2, _⟩ => show 0 + 1 * r.val = r.val; omega
  | ⟨3, _⟩ => show 0 + 1 * cc.val = cc.val; omega

theorem ld_slab1 (X : Vec Ideal S3x1x1024x64 .f32) : blockSlab (View.ld X r0_1) = fun r cc => X (ix4 1 0 r cc) := by
  funext r cc
  show X (r0_1.emb (ix4 0 0 r cc)) = X (ix4 1 0 r cc)
  refine congrArg _ (funext fun a => Fin.ext ?_)
  match a with
  | ⟨0, _⟩ => show 1 + 1 * 0 = 1; rfl
  | ⟨1, _⟩ => show 0 + 1 * 0 = 0; rfl
  | ⟨2, _⟩ => show 0 + 1 * r.val = r.val; omega
  | ⟨3, _⟩ => show 0 + 1 * cc.val = cc.val; omega

theorem ld_slab2 (X : Vec Ideal S3x1x1024x64 .f32) : blockSlab (View.ld X r0_2) = fun r cc => X (ix4 2 0 r cc) := by
  funext r cc
  show X (r0_2.emb (ix4 0 0 r cc)) = X (ix4 2 0 r cc)
  refine congrArg _ (funext fun a => Fin.ext ?_)
  match a with
  | ⟨0, _⟩ => show 2 + 1 * 0 = 2; rfl
  | ⟨1, _⟩ => show 0 + 1 * 0 = 0; rfl
  | ⟨2, _⟩ => show 0 + 1 * r.val = r.val; omega
  | ⟨3, _⟩ => show 0 + 1 * cc.val = cc.val; omega

/-- So slab p of the block at point t is slab p of slice t of the input array. -/
theorem slab_eq (c : Dev nD) (t : Fin cfg0.N) (p : Fin 3) :
    (fun r cc => xblk m c t (ix4 p 0 r cc)) = slab (V m c main_arg0) p (sl t) :=
  funext fun r => funext fun cc => xblk_apply m c t p r cc

/-! Each parameter window's block is its whole array at every point, and the body loads it whole. -/

theorem w1_eq (c : Dev nD) (t : Fin cfg0.N) : vec (View.ld (iblk m c 1 t) r0_3) = vec (V m c main_arg1) := by
  rw [View.ld_unit_zero (S := S64) hz1]
  funext cc
  show V m c main_arg1 (((cfg0.win 1).blk t).view.emb (ix1 cc)) = V m c main_arg1 (ix1 cc)
  refine congrArg _ (funext fun a => Fin.ext ?_)
  match a with
  | ⟨0, _⟩ => show 0 * 64 + 1 * cc.val = cc.val; omega

theorem w2_eq (c : Dev nD) (t : Fin cfg0.N) : vec (View.ld (iblk m c 2 t) r0_3) = vec (V m c main_arg2) := by
  rw [View.ld_unit_zero (S := S64) hz1]
  funext cc
  show V m c main_arg2 (((cfg0.win 2).blk t).view.emb (ix1 cc)) = V m c main_arg2 (ix1 cc)
  refine congrArg _ (funext fun a => Fin.ext ?_)
  match a with
  | ⟨0, _⟩ => show 0 * 64 + 1 * cc.val = cc.val; omega

theorem w3_eq (c : Dev nD) (t : Fin cfg0.N) : vec (View.ld (iblk m c 3 t) r0_3) = vec (V m c main_arg3) := by
  rw [View.ld_unit_zero (S := S64) hz1]
  funext cc
  show V m c main_arg3 (((cfg0.win 3).blk t).view.emb (ix1 cc)) = V m c main_arg3 (ix1 cc)
  refine congrArg _ (funext fun a => Fin.ext ?_)
  match a with
  | ⟨0, _⟩ => show 0 * 64 + 1 * cc.val = cc.val; omega

theorem w4_eq (c : Dev nD) (t : Fin cfg0.N) : vec (View.ld (iblk m c 4 t) r0_3) = vec (V m c main_arg4) := by
  rw [View.ld_unit_zero (S := S64) hz1]
  funext cc
  show V m c main_arg4 (((cfg0.win 4).blk t).view.emb (ix1 cc)) = V m c main_arg4 (ix1 cc)
  refine congrArg _ (funext fun a => Fin.ext ?_)
  match a with
  | ⟨0, _⟩ => show 0 * 64 + 1 * cc.val = cc.val; omega

theorem w5_eq (c : Dev nD) (t : Fin cfg0.N) : vec (View.ld (iblk m c 5 t) r0_3) = vec (V m c main_arg5) := by
  rw [View.ld_unit_zero (S := S64) hz1]
  funext cc
  show V m c main_arg5 (((cfg0.win 5).blk t).view.emb (ix1 cc)) = V m c main_arg5 (ix1 cc)
  refine congrArg _ (funext fun a => Fin.ext ?_)
  match a with
  | ⟨0, _⟩ => show 0 * 64 + 1 * cc.val = cc.val; omega

theorem w6_eq (c : Dev nD) (t : Fin cfg0.N) : vec (View.ld (iblk m c 6 t) r0_3) = vec (V m c main_arg6) := by
  rw [View.ld_unit_zero (S := S64) hz1]
  funext cc
  show V m c main_arg6 (((cfg0.win 6).blk t).view.emb (ix1 cc)) = V m c main_arg6 (ix1 cc)
  refine congrArg _ (funext fun a => Fin.ext ?_)
  match a with
  | ⟨0, _⟩ => show 0 * 64 + 1 * cc.val = cc.val; omega

theorem w7_eq (c : Dev nD) (t : Fin cfg0.N) : vec (View.ld (iblk m c 7 t) r0_3) = vec (V m c main_arg7) := by
  rw [View.ld_unit_zero (S := S64) hz1]
  funext cc
  show V m c main_arg7 (((cfg0.win 7).blk t).view.emb (ix1 cc)) = V m c main_arg7 (ix1 cc)
  refine congrArg _ (funext fun a => Fin.ext ?_)
  match a with
  | ⟨0, _⟩ => show 0 * 64 + 1 * cc.val = cc.val; omega

theorem w8_eq (c : Dev nD) (t : Fin cfg0.N) : vec (View.ld (iblk m c 8 t) r0_3) = vec (V m c main_arg8) := by
  rw [View.ld_unit_zero (S := S64) hz1]
  funext cc
  show V m c main_arg8 (((cfg0.win 8).blk t).view.emb (ix1 cc)) = V m c main_arg8 (ix1 cc)
  refine congrArg _ (funext fun a => Fin.ext ?_)
  match a with
  | ⟨0, _⟩ => show 0 * 64 + 1 * cc.val = cc.val; omega

theorem w9_eq (c : Dev nD) (t : Fin cfg0.N) : vec (View.ld (iblk m c 9 t) r0_3) = vec (V m c main_arg9) := by
  rw [View.ld_unit_zero (S := S64) hz1]
  funext cc
  show V m c main_arg9 (((cfg0.win 9).blk t).view.emb (ix1 cc)) = V m c main_arg9 (ix1 cc)
  refine congrArg _ (funext fun a => Fin.ext ?_)
  match a with
  | ⟨0, _⟩ => show 0 * 64 + 1 * cc.val = cc.val; omega

theorem w10_eq (c : Dev nD) (t : Fin cfg0.N) : vec (View.ld (iblk m c 10 t) r0_3) = vec (V m c main_arg10) := by
  rw [View.ld_unit_zero (S := S64) hz1]
  funext cc
  show V m c main_arg10 (((cfg0.win 10).blk t).view.emb (ix1 cc)) = V m c main_arg10 (ix1 cc)
  refine congrArg _ (funext fun a => Fin.ext ?_)
  match a with
  | ⟨0, _⟩ => show 0 * 64 + 1 * cc.val = cc.val; omega

theorem w11_eq (c : Dev nD) (t : Fin cfg0.N) : vec (View.ld (iblk m c 11 t) r0_3) = vec (V m c main_arg11) := by
  rw [View.ld_unit_zero (S := S64) hz1]
  funext cc
  show V m c main_arg11 (((cfg0.win 11).blk t).view.emb (ix1 cc)) = V m c main_arg11 (ix1 cc)
  refine congrArg _ (funext fun a => Fin.ext ?_)
  match a with
  | ⟨0, _⟩ => show 0 * 64 + 1 * cc.val = cc.val; omega

theorem w12_eq (c : Dev nD) (t : Fin cfg0.N) : vec (View.ld (iblk m c 12 t) r0_3) = vec (V m c main_arg12) := by
  rw [View.ld_unit_zero (S := S64) hz1]
  funext cc
  show V m c main_arg12 (((cfg0.win 12).blk t).view.emb (ix1 cc)) = V m c main_arg12 (ix1 cc)
  refine congrArg _ (funext fun a => Fin.ext ?_)
  match a with
  | ⟨0, _⟩ => show 0 * 64 + 1 * cc.val = cc.val; omega

theorem w13_eq (c : Dev nD) (t : Fin cfg0.N) : vec (View.ld (iblk m c 13 t) r0_3) = vec (V m c main_arg13) := by
  rw [View.ld_unit_zero (S := S64) hz1]
  funext cc
  show V m c main_arg13 (((cfg0.win 13).blk t).view.emb (ix1 cc)) = V m c main_arg13 (ix1 cc)
  refine congrArg _ (funext fun a => Fin.ext ?_)
  match a with
  | ⟨0, _⟩ => show 0 * 64 + 1 * cc.val = cc.val; omega

theorem w14_eq (c : Dev nD) (t : Fin cfg0.N) : vec (View.ld (iblk m c 14 t) r0_3) = vec (V m c main_arg14) := by
  rw [View.ld_unit_zero (S := S64) hz1]
  funext cc
  show V m c main_arg14 (((cfg0.win 14).blk t).view.emb (ix1 cc)) = V m c main_arg14 (ix1 cc)
  refine congrArg _ (funext fun a => Fin.ext ?_)
  match a with
  | ⟨0, _⟩ => show 0 * 64 + 1 * cc.val = cc.val; omega

/-- The result array the kernel ends with: the specification's G of the argument arrays as the region finds them. -/
abbrev GK (c : Dev nD) : S20x1024x64.Idx → EReal :=
  G (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14)

/-- What point t leaves in the output buffer, at row r and channel col h d, is G at slice t, the same row and channel. -/
theorem point_eq (c : Dev nD) (t : Fin cfg0.N) (r : Fin 1024) (h : Fin 4) (d : Fin 16) :
    kBody (View.ld (xblk m c t) r0_0) (View.ld (xblk m c t) r0_1) (View.ld (xblk m c t) r0_2) (View.ld (iblk m c 1 t) r0_3) (View.ld (iblk m c 2 t) r0_3) (View.ld (iblk m c 3 t) r0_3) (View.ld (iblk m c 4 t) r0_3) (View.ld (iblk m c 5 t) r0_3) (View.ld (iblk m c 6 t) r0_3) (View.ld (iblk m c 7 t) r0_3) (View.ld (iblk m c 8 t) r0_3) (View.ld (iblk m c 9 t) r0_3) (View.ld (iblk m c 10 t) r0_3) (View.ld (iblk m c 11 t) r0_3) (View.ld (iblk m c 12 t) r0_3) (View.ld (iblk m c 13 t) r0_3) (View.ld (iblk m c 14 t) r0_3) (ix3 0 r (col h d))
      = GK m c (ix3 (sl t) r (col h d)) := by
  rw [kBody_apply]
  refine Eq.trans ?_ (G_apply _ _ _ _ _ _ _ _ _ _ _ _ _ _ _ (sl t) r h d).symm
  unfold out branch
  rw [(ld_slab0 (xblk m c t)).trans (slab_eq m c t 0), (ld_slab1 (xblk m c t)).trans (slab_eq m c t 1),
    (ld_slab2 (xblk m c t)).trans (slab_eq m c t 2),
    w1_eq m c t, w2_eq m c t, w3_eq m c t, w4_eq m c t, w5_eq m c t, w6_eq m c t, w7_eq m c t, w8_eq m c t, w9_eq m c t, w10_eq m c t, w11_eq m c t, w12_eq m c t, w13_eq m c t, w14_eq m c t]

/-- The same at any index of the buffer. -/
theorem point_eq' (c : Dev nD) (t : Fin cfg0.N) (j : S1x1024x64.Idx) :
    kBody (View.ld (xblk m c t) r0_0) (View.ld (xblk m c t) r0_1) (View.ld (xblk m c t) r0_2) (View.ld (iblk m c 1 t) r0_3) (View.ld (iblk m c 2 t) r0_3) (View.ld (iblk m c 3 t) r0_3) (View.ld (iblk m c 4 t) r0_3) (View.ld (iblk m c 5 t) r0_3) (View.ld (iblk m c 6 t) r0_3) (View.ld (iblk m c 7 t) r0_3) (View.ld (iblk m c 8 t) r0_3) (View.ld (iblk m c 9 t) r0_3) (View.ld (iblk m c 10 t) r0_3) (View.ld (iblk m c 11 t) r0_3) (View.ld (iblk m c 12 t) r0_3) (View.ld (iblk m c 13 t) r0_3) (View.ld (iblk m c 14 t) r0_3) j
      = GK m c (ix3 (sl t) (⟨(j 1).val, (j 1).isLt⟩ : Fin 1024) (⟨(j 2).val, (j 2).isLt⟩ : Fin 64)) := by
  obtain ⟨h, d, hc⟩ := exists_col (⟨(j 2).val, (j 2).isLt⟩ : Fin 64)
  have hj : j = ix3 0 (⟨(j 1).val, (j 1).isLt⟩ : Fin 1024) (col h d) := by
    funext a
    match a with
    | ⟨0, _⟩ => exact Fin.ext (by have h0 : (j 0).val < 1 := (j 0).isLt; show (j 0).val = 0; omega)
    | ⟨1, _⟩ => rfl
    | ⟨2, _⟩ => exact hc
  rw [hc]
  generalize (⟨(j 1).val, (j 1).isLt⟩ : Fin 1024) = r at hj ⊢
  subst hj
  exact point_eq m c t r h d

/-- WHAT POINT t WRITES BACK is block t of the result array G. -/
theorem flushed_eq (c : Dev nD) (t : Fin cfg0.N) :
    (dats m 0 c).flushed 15 t = ((cfg0.win 15).blk t).view.read (Elt Ideal) (GK m c) := by
  rw [Cert.KernelIdeal.Value.flushed15, out_eq, View.canon_unit_zero hz3]
  obtain ⟨-, -, -, -, e4, e5, e6⟩ := idx_facts t
  funext j
  refine (point_eq' m c t j).trans (congrArg (GK m c) (funext fun a => Fin.ext ?_))
  match a with
  | ⟨0, _⟩ => show t.val = win0_15.index t (0 : Fin 3) * 1 + 1 * (j 0).val; have h0 : (j 0).val < 1 := (j 0).isLt; omega
  | ⟨1, _⟩ => show (j 1).val = win0_15.index t (1 : Fin 3) * 1024 + 1 * (j 1).val; omega
  | ⟨2, _⟩ => show (j 2).val = win0_15.index t (2 : Fin 3) * 64 + 1 * (j 2).val; omega

/-- An index of the result array is in point t's block iff each coordinate is in the block's range on its axis. -/
theorem mem_blk (t : Fin cfg0.N) (i : S20x1024x64.Idx) :
    i ∈ ((cfg0.win 15).blk t).view.set ↔ ∀ a : Fin 3, win0_15.index t a * S1x1024x64.size a ≤ (i a).val ∧ (i a).val < win0_15.index t a * S1x1024x64.size a + S1x1024x64.size a := by
  show i ∈ ((View.whole main_v0).slice (win0_15.rect t)).set ↔ _
  rw [View.set_slice_whole, Rect.mem_set_unit]
  exact Iff.rfl

/-- Every index of the result array is in the block of the point its slice names. -/
theorem cover (i : S20x1024x64.Idx) : ∃ t : Fin cfg0.N, (cfg0.win 15).flush t = true ∧ i ∈ ((cfg0.win 15).blk t).view.set := by
  have hi0 : (i 0).val < 20 := (i 0).isLt
  have hi1 : (i 1).val < 1024 := (i 1).isLt
  have hi2 : (i 2).val < 64 := (i 2).isLt
  refine ⟨⟨(i 0).val, Nat.lt_of_lt_of_eq hi0 hN.symm⟩, flush0_15 _, ?_⟩
  obtain ⟨-, -, -, -, e4, e5, e6⟩ := idx_facts ⟨(i 0).val, Nat.lt_of_lt_of_eq hi0 hN.symm⟩
  rw [mem_blk]
  intro a
  match a with
  | ⟨0, _⟩ => show win0_15.index _ (0 : Fin 3) * 1 ≤ (i 0).val ∧ (i 0).val < win0_15.index _ (0 : Fin 3) * 1 + 1; rw [e4]; show (i 0).val * 1 ≤ (i 0).val ∧ (i 0).val < (i 0).val * 1 + 1; omega
  | ⟨1, _⟩ => show win0_15.index _ (1 : Fin 3) * 1024 ≤ (i 1).val ∧ (i 1).val < win0_15.index _ (1 : Fin 3) * 1024 + 1024; rw [e5]; omega
  | ⟨2, _⟩ => show win0_15.index _ (2 : Fin 3) * 64 ≤ (i 2).val ∧ (i 2).val < win0_15.index _ (2 : Fin 3) * 64 + 64; rw [e6]; omega

/-- THE RESULT ARRAY after the run is G of the argument arrays. -/
theorem final (c : Dev nD) : (dats m 0 c).arrAt 15 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (dats m 0 c).arrAt_eq_of_cover 15 (GK m c) (fun t _ => flushed_eq m c t) cover

/-- The run, read: the result array at G of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (Cert.KernelIdeal.Value.run_blocks m ρ)

end Cert.KernelIdeal.Whole

end
-- ==== Proof.RefBody.lean ====
/-
  The reference's result as ONE structured term. Its main function computes, over all twenty slices at once, the
  per-channel affine maps of the three slabs for each branch; splits the 64 channels into four heads of sixteen
  and moves the head axis in front of the rows; takes, batched over slice and head, the product of queries and
  keys (contracting the sixteen channels), the scaling by 1/4, the row maximum, the shifted exponential, its row
  sum, the quotient and the product with the values; moves the head axis back and merges it with the channels;
  averages the two branches with weights 1/2, doubles the average, scales and shifts per channel. The definitions
  below say exactly that, operation for operation, so that each building block is read at an index once and
  serves both branches; result_eq says the run's composed term IS this term (by unfolding).
-/
import proofs.«171287_j12481174962635_1_alg».proof.Proof.Gen.ReferenceIdeal.Run

set_option maxRecDepth 16384

noncomputable section

namespace Cert.ReferenceIdeal.Body

open Cert.ReferenceIdeal Cert.ReferenceIdeal.Gen Idealize.ShloMosaic Idealize.ShloMosaic.TcCoe Idealize.SL.Sem

variable {F : FTy → Type} [FloatOps F]

/-- Slab p of the input, over all slices. -/
def rSlab (off : Fin 4 → Nat) (hs : S3x20x1024x64.Slices off S1x20x1024x64) (x : FVec F S3x20x1024x64 .f32) : FVec F S20x1024x64 .f32 :=
  shapeCast S20x1024x64 (extractStridedSlice S1x20x1024x64 off x hs) shapeCasts_S1x20x1024x64_S20x1024x64

/-- A parameter vector laid along every slice and row. -/
def rRows (w : FVec F S64 .f32) : FVec F S20x1024x64 .f32 :=
  broadcastInDim S20x1024x64 ![0, 1, 2] bcast_S1x1x64_S20x1024x64_0_1_2 (broadcastInDim S1x1x64 ![2] bcast_S64_S1x1x64_2 w)

/-- The per-channel affine map. -/
def rAff (x : FVec F S20x1024x64 .f32) (w b : FVec F S64 .f32) : FVec F S20x1024x64 .f32 :=
  addf (mulf x (rRows w)) (rRows b)

/-- The channels split into heads, the head axis moved in front of the rows. -/
def rHeads (t : FVec F S20x1024x64 .f32) : FVec F S20x4x1024x16 .f32 :=
  transpose S20x4x1024x16 [0, 2, 1, 3] (shapeCast S20x1024x4x16 t shapeCasts_S20x1024x64_S20x1024x4x16)
    transposes_S20x1024x4x16_S20x4x1024x16_0_2_1_3

/-- The scores of every slice and head: queries times keys over the sixteen channels, times 1/4. -/
def rScores (q k : FVec F S20x1024x64 .f32) : FVec F S20x4x1024x1024 .f32 :=
  mulf (Host.dotGeneral dot_S20x4x1024x16_S20x4x1024x16_S20x4x1024x1024_3_3_2_2_01_01 none (rHeads q) (rHeads k))
    (broadcastInDim S20x4x1024x1024 ![] bcast_S_S20x4x1024x1024 (constant S_ .f32 0x3E800000#32))

/-- A per-row value laid along every column. -/
def rCols (v : FVec F S20x4x1024 .f32) : FVec F S20x4x1024x1024 .f32 :=
  broadcastInDim S20x4x1024x1024 ![0, 1, 2, 3] bcast_S20x4x1024x1_S20x4x1024x1024_0_1_2_3
    (broadcastInDim S20x4x1024x1 ![0, 1, 2] bcast_S20x4x1024_S20x4x1024x1_0_1_2 v)

/-- The row maxima of the scores, from -inf, compared with -inf once more. -/
def rRowMax (sc : FVec F S20x4x1024x1024 .f32) : FVec F S20x4x1024 .f32 :=
  maximumf (broadcastInDim S20x4x1024 ![] bcast_S_S20x4x1024 (constant S_ .f32 0xFF800000#32))
    (Host.reduce FloatOps.maximumf sc (constant S_ .f32 0xFF800000#32) reducesTo_S20x4x1024x1024_S20x4x1024_d3 h_S_)

/-- The shifted exponentials. -/
def rExp (sc : FVec F S20x4x1024x1024 .f32) : FVec F S20x4x1024x1024 .f32 :=
  Host.exp (subf sc (rCols (rRowMax sc)))

/-- The row sums. -/
def rRowSum (e : FVec F S20x4x1024x1024 .f32) : FVec F S20x4x1024 .f32 :=
  Host.reduceAdd e (constant S_ .f32 0x00000000#32) reducesTo_S20x4x1024x1024_S20x4x1024_d3 h_S_

/-- The weights. -/
def rSoft (e : FVec F S20x4x1024x1024 .f32) : FVec F S20x4x1024x1024 .f32 :=
  Host.divf e (rCols (rRowSum e))

/-- One branch: the weights times the values, the head axis moved back and merged with the channels. -/
def rAttn (q k v : FVec F S20x1024x64 .f32) : FVec F S20x1024x64 .f32 :=
  shapeCast S20x1024x64
    (transpose S20x1024x4x16 [0, 2, 1, 3]
      (Host.dotGeneral dot_S20x4x1024x1024_S20x4x1024x16_S20x4x1024x16_3_2_2_3_01_01 none (rSoft (rExp (rScores q k))) (rHeads v))
      transposes_S20x4x1024x16_S20x1024x4x16_0_2_1_3)
    shapeCasts_S20x1024x4x16_S20x1024x64

/-- A scalar constant laid over the whole result shape. -/
def rSplat (b : BitVec 32) : FVec F S20x1024x64 .f32 :=
  broadcastInDim S20x1024x64 ![] bcast_S_S20x1024x64 (constant S_ .f32 b)

/-- The result, from the input and the fourteen parameter vectors. -/
def rOut (x : FVec F S3x20x1024x64 .f32) (gqw gqb gkw gkb gvw gvb lqw lqb lkw lkb lvw lvb pw pb : FVec F S64 .f32) :
    FVec F S20x1024x64 .f32 :=
  addf (mulf (mulf (rSplat 0x40000000#32)
      (addf (mulf (rSplat 0x3F000000#32)
              (rAttn (rAff (rSlab ![0, 0, 0, 0] slices_S3x20x1024x64_S1x20x1024x64_0_0_0_0 x) lqw lqb)
                     (rAff (rSlab ![1, 0, 0, 0] slices_S3x20x1024x64_S1x20x1024x64_1_0_0_0 x) lkw lkb)
                     (rAff (rSlab ![2, 0, 0, 0] slices_S3x20x1024x64_S1x20x1024x64_2_0_0_0 x) lvw lvb)))
            (mulf (rSplat 0x3F000000#32)
              (rAttn (rAff (rSlab ![0, 0, 0, 0] slices_S3x20x1024x64_S1x20x1024x64_0_0_0_0 x) gqw gqb)
                     (rAff (rSlab ![1, 0, 0, 0] slices_S3x20x1024x64_S1x20x1024x64_1_0_0_0 x) gkw gkb)
                     (rAff (rSlab ![2, 0, 0, 0] slices_S3x20x1024x64_S1x20x1024x64_2_0_0_0 x) gvw gvb)))))
      (rRows pw)) (rRows pb)

/-- The run's composed term is rOut of the arguments' launch contents. -/
theorem result_eq (m : (ℓ : Loc nD τ sig) → Buf (Elt F) ℓ) (c : Dev nD) :
    Cert.ReferenceIdeal.Value.res_main_v100 m c
      = rOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) := by
  unfold Cert.ReferenceIdeal.Value.res_main_v100
  rfl

end Cert.ReferenceIdeal.Body

end
-- ==== Proof.RefValue.lean ====
/-
  The reference's result read at an index.
-/
import proofs.«171287_j12481174962635_1_alg».proof.Proof.RefBody
import proofs.«171287_j12481174962635_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Body

open Cert.ReferenceIdeal Cert.ReferenceIdeal.Gen Idealize.ShloMosaic Idealize.ShloMosaic.TcCoe Idealize.SL.Sem
open Idealize.ShloMosaic.ValueIdx Cert.Attn

/-! ## The building blocks read at coordinates -/

/-- A scalar constant laid over the result shape reads the constant everywhere. -/
theorem rSplat_apply (b : BitVec 32) (i : S20x1024x64.Idx) : rSplat (F := Ideal) b i = Ideal.ofBits .f32 b := by
  unfold rSplat
  exact broadcastInDim_apply _ bcast_S_S20x1024x64 _ i ix0 (fun a => a.elim0)

/-- A parameter vector laid along every slice and row reads, at channel c, its entry c. -/
theorem rRows_apply (w : FVec Ideal S64 .f32) (s : Fin 20) (r : Fin 1024) (c : Fin 64) :
    rRows w (ix3 s r c) = w (ix1 c) := by
  unfold rRows
  refine (broadcastInDim_apply _ bcast_S1x1x64_S20x1024x64_0_1_2 _ (ix3 s r c) (ix3 (0 : Fin 1) (0 : Fin 1) c) (fun a => match a with
    | ⟨0, _⟩ => rfl
    | ⟨1, _⟩ => rfl
    | ⟨2, _⟩ => rfl)).trans ?_
  exact broadcastInDim_apply _ bcast_S64_S1x1x64_2 w (ix3 (0 : Fin 1) (0 : Fin 1) c) (ix1 c) (fun a => match a with
    | ⟨0, _⟩ => rfl)

/-- The per-channel affine map at (s, r, c). -/
theorem rAff_apply (x : FVec Ideal S20x1024x64 .f32) (w b : FVec Ideal S64 .f32) (s : Fin 20) (r : Fin 1024) (c : Fin 64) :
    rAff x w b (ix3 s r c) = x (ix3 s r c) * w (ix1 c) + b (ix1 c) := by
  show x (ix3 s r c) * rRows w (ix3 s r c) + rRows b (ix3 s r c) = _
  rw [rRows_apply, rRows_apply]

/-- Slab p of the input at (s, r, c): the input at (p, s, r, c). -/
theorem rSlab_apply (off : Fin 4 → Nat) (hs : S3x20x1024x64.Slices off S1x20x1024x64) (x : FVec Ideal S3x20x1024x64 .f32)
    (p : Fin 3) (h0 : off 0 = p.val) (h1 : off 1 = 0) (h2 : off 2 = 0) (h3 : off 3 = 0)
    (s : Fin 20) (r : Fin 1024) (c : Fin 64) :
    rSlab off hs x (ix3 s r c) = x (ix4 p s r c) := by
  unfold rSlab
  refine (shapeCast_apply _ shapeCasts_S1x20x1024x64_S20x1024x64 (ix3 s r c) (ix4 (0 : Fin 1) s r c) ?_).trans ?_
  · rw [Shape.rowMajor_val_four, Shape.rowMajor_val_three]
    show ((0 * 20 + s.val) * 1024 + r.val) * 64 + c.val = (s.val * 1024 + r.val) * 64 + c.val
    omega
  · exact extractStridedSlice_apply off x hs (ix4 (0 : Fin 1) s r c) (ix4 p s r c) (fun a => match a with
      | ⟨0, _⟩ => by show p.val = off 0 + 0; omega
      | ⟨1, _⟩ => by show s.val = off 1 + s.val; omega
      | ⟨2, _⟩ => by show r.val = off 2 + r.val; omega
      | ⟨3, _⟩ => by show c.val = off 3 + c.val; omega)

/-- The split into heads at (s, h, r, d): the operand at (s, r, 16 h + d). -/
theorem rHeads_apply (t : FVec Ideal S20x1024x64 .f32) (s : Fin 20) (h : Fin 4) (r : Fin 1024) (d : Fin 16) :
    rHeads t (ix4 s h r d) = t (ix3 s r (col h d)) := by
  unfold rHeads
  refine (transpose_apply [0, 2, 1, 3] _ transposes_S20x1024x4x16_S20x4x1024x16_0_2_1_3 (ix4 s h r d) (ix4 s r h d) (fun b => match b with
    | ⟨0, _⟩ => rfl
    | ⟨1, _⟩ => rfl
    | ⟨2, _⟩ => rfl
    | ⟨3, _⟩ => rfl)).trans ?_
  refine shapeCast_apply t shapeCasts_S20x1024x64_S20x1024x4x16 (ix4 s r h d) (ix3 s r (col h d)) ?_
  rw [Shape.rowMajor_val_three, Shape.rowMajor_val_four]
  show (s.val * 1024 + r.val) * 64 + (16 * h.val + d.val) = ((s.val * 1024 + r.val) * 4 + h.val) * 16 + d.val
  omega

/-- A per-row value laid along every column reads, at (s, h, r, k), the value at (s, h, r). -/
theorem rCols_apply (v : FVec Ideal S20x4x1024 .f32) (s : Fin 20) (h : Fin 4) (r k : Fin 1024) :
    rCols v (ix4 s h r k) = v (ix3 s h r) := by
  unfold rCols
  refine (broadcastInDim_apply _ bcast_S20x4x1024x1_S20x4x1024x1024_0_1_2_3 _ (ix4 s h r k) (ix4 s h r (0 : Fin 1)) (fun a => match a with
    | ⟨0, _⟩ => rfl
    | ⟨1, _⟩ => rfl
    | ⟨2, _⟩ => rfl
    | ⟨3, _⟩ => rfl)).trans ?_
  exact broadcastInDim_apply _ bcast_S20x4x1024_S20x4x1024x1_0_1_2 v (ix4 s h r (0 : Fin 1)) (ix3 s h r) (fun a => match a with
    | ⟨0, _⟩ => rfl
    | ⟨1, _⟩ => rfl
    | ⟨2, _⟩ => rfl)

/-! ## The two batched products -/

/-- The queries-times-keys product's left operand index on the slice axis. -/
theorem scoresDot_lhs_0 (i : S20x4x1024x1024.Idx) (q : dot_S20x4x1024x16_S20x4x1024x16_S20x4x1024x1024_3_3_2_2_01_01.contr.Idx) :
    (dot_S20x4x1024x16_S20x4x1024x16_S20x4x1024x1024_3_3_2_2_01_01.lhsIdx i q 0).val = (i 0).val := by
  simp [DotDims.lhsIdx, dot_S20x4x1024x16_S20x4x1024x16_S20x4x1024x1024_3_3_2_2_01_01]; rfl
/-- … on the head axis. -/
theorem scoresDot_lhs_1 (i : S20x4x1024x1024.Idx) (q : dot_S20x4x1024x16_S20x4x1024x16_S20x4x1024x1024_3_3_2_2_01_01.contr.Idx) :
    (dot_S20x4x1024x16_S20x4x1024x16_S20x4x1024x1024_3_3_2_2_01_01.lhsIdx i q 1).val = (i 1).val := by
  simp [DotDims.lhsIdx, dot_S20x4x1024x16_S20x4x1024x16_S20x4x1024x1024_3_3_2_2_01_01]; rfl
/-- … on the row axis: the query row. -/
theorem scoresDot_lhs_2 (i : S20x4x1024x1024.Idx) (q : dot_S20x4x1024x16_S20x4x1024x16_S20x4x1024x1024_3_3_2_2_01_01.contr.Idx) :
    (dot_S20x4x1024x16_S20x4x1024x16_S20x4x1024x1024_3_3_2_2_01_01.lhsIdx i q 2).val = (i 2).val := by
  simp [DotDims.lhsIdx, dot_S20x4x1024x16_S20x4x1024x16_S20x4x1024x1024_3_3_2_2_01_01]; rfl
/-- … on the channel axis: the contracted channel. -/
theorem scoresDot_lhs_3 (i : S20x4x1024x1024.Idx) (q : dot_S20x4x1024x16_S20x4x1024x16_S20x4x1024x1024_3_3_2_2_01_01.contr.Idx) :
    (dot_S20x4x1024x16_S20x4x1024x16_S20x4x1024x1024_3_3_2_2_01_01.lhsIdx i q 3).val = (q ⟨0, by decide⟩).val := by
  simp [DotDims.lhsIdx, dot_S20x4x1024x16_S20x4x1024x16_S20x4x1024x1024_3_3_2_2_01_01]; rfl
/-- The right operand index on the slice axis. -/
theorem scoresDot_rhs_0 (i : S20x4x1024x1024.Idx) (q : dot_S20x4x1024x16_S20x4x1024x16_S20x4x1024x1024_3_3_2_2_01_01.contr.Idx) :
    (dot_S20x4x1024x16_S20x4x1024x16_S20x4x1024x1024_3_3_2_2_01_01.rhsIdx i q 0).val = (i 0).val := by
  simp [DotDims.rhsIdx, dot_S20x4x1024x16_S20x4x1024x16_S20x4x1024x1024_3_3_2_2_01_01]; rfl
/-- … on the head axis. -/
theorem scoresDot_rhs_1 (i : S20x4x1024x1024.Idx) (q : dot_S20x4x1024x16_S20x4x1024x16_S20x4x1024x1024_3_3_2_2_01_01.contr.Idx) :
    (dot_S20x4x1024x16_S20x4x1024x16_S20x4x1024x1024_3_3_2_2_01_01.rhsIdx i q 1).val = (i 1).val := by
  simp [DotDims.rhsIdx, dot_S20x4x1024x16_S20x4x1024x16_S20x4x1024x1024_3_3_2_2_01_01]; rfl
/-- … on the row axis: the key row, the result's last coordinate. -/
theorem scoresDot_rhs_2 (i : S20x4x1024x1024.Idx) (q : dot_S20x4x1024x16_S20x4x1024x16_S20x4x1024x1024_3_3_2_2_01_01.contr.Idx) :
    (dot_S20x4x1024x16_S20x4x1024x16_S20x4x1024x1024_3_3_2_2_01_01.rhsIdx i q 2).val = (i 3).val := by
  simp [DotDims.rhsIdx, dot_S20x4x1024x16_S20x4x1024x16_S20x4x1024x1024_3_3_2_2_01_01]; rfl
/-- … on the channel axis: the contracted channel. -/
theorem scoresDot_rhs_3 (i : S20x4x1024x1024.Idx) (q : dot_S20x4x1024x16_S20x4x1024x16_S20x4x1024x1024_3_3_2_2_01_01.contr.Idx) :
    (dot_S20x4x1024x16_S20x4x1024x16_S20x4x1024x1024_3_3_2_2_01_01.rhsIdx i q 3).val = (q ⟨0, by decide⟩).val := by
  simp [DotDims.rhsIdx, dot_S20x4x1024x16_S20x4x1024x16_S20x4x1024x1024_3_3_2_2_01_01]; rfl

/-- The product of queries and keys at (s, h, r, k): the sum over the sixteen channels of the head. -/
theorem scoresDot_apply (a b : FVec Ideal S20x4x1024x16 .f32) (s : Fin 20) (h : Fin 4) (r k : Fin 1024) :
    Host.dotGeneral dot_S20x4x1024x16_S20x4x1024x16_S20x4x1024x1024_3_3_2_2_01_01 none a b (ix4 s h r k)
      = ∑ d : Fin 16, a (ix4 s h r d) * b (ix4 s h k d) := by
  refine (Ideal.dotGeneral_apply dot_S20x4x1024x16_S20x4x1024x16_S20x4x1024x1024_3_3_2_2_01_01 none .single a b (ix4 s h r k)).trans ?_
  refine (Equiv.sum_comp (contrEquiv1 dot_S20x4x1024x16_S20x4x1024x16_S20x4x1024x1024_3_3_2_2_01_01 16 rfl rfl).symm _).symm.trans ?_
  refine Finset.sum_congr rfl fun d _ => ?_
  have hd := contrEquiv1_symm_val dot_S20x4x1024x16_S20x4x1024x16_S20x4x1024x1024_3_3_2_2_01_01 16 rfl rfl d
  have el : dot_S20x4x1024x16_S20x4x1024x16_S20x4x1024x1024_3_3_2_2_01_01.lhsIdx (ix4 s h r k) ((contrEquiv1 dot_S20x4x1024x16_S20x4x1024x16_S20x4x1024x1024_3_3_2_2_01_01 16 rfl rfl).symm d) = ix4 s h r d :=
    funext fun c => Fin.ext (by
      match c with
      | ⟨0, _⟩ => exact scoresDot_lhs_0 _ _
      | ⟨1, _⟩ => exact scoresDot_lhs_1 _ _
      | ⟨2, _⟩ => exact scoresDot_lhs_2 _ _
      | ⟨3, _⟩ => exact (scoresDot_lhs_3 _ _).trans hd)
  have er : dot_S20x4x1024x16_S20x4x1024x16_S20x4x1024x1024_3_3_2_2_01_01.rhsIdx (ix4 s h r k) ((contrEquiv1 dot_S20x4x1024x16_S20x4x1024x16_S20x4x1024x1024_3_3_2_2_01_01 16 rfl rfl).symm d) = ix4 s h k d :=
    funext fun c => Fin.ext (by
      match c with
      | ⟨0, _⟩ => exact scoresDot_rhs_0 _ _
      | ⟨1, _⟩ => exact scoresDot_rhs_1 _ _
      | ⟨2, _⟩ => exact scoresDot_rhs_2 _ _
      | ⟨3, _⟩ => exact (scoresDot_rhs_3 _ _).trans hd)
  exact congrArg₂ (· * ·) (congrArg a el) (congrArg b er)

/-- The weights-times-values product's left operand index on the slice axis. -/
theorem attnDot_lhs_0 (i : S20x4x1024x16.Idx) (q : dot_S20x4x1024x1024_S20x4x1024x16_S20x4x1024x16_3_2_2_3_01_01.contr.Idx) :
    (dot_S20x4x1024x1024_S20x4x1024x16_S20x4x1024x16_3_2_2_3_01_01.lhsIdx i q 0).val = (i 0).val := by
  simp [DotDims.lhsIdx, dot_S20x4x1024x1024_S20x4x1024x16_S20x4x1024x16_3_2_2_3_01_01]; rfl
/-- … on the head axis. -/
theorem attnDot_lhs_1 (i : S20x4x1024x16.Idx) (q : dot_S20x4x1024x1024_S20x4x1024x16_S20x4x1024x16_3_2_2_3_01_01.contr.Idx) :
    (dot_S20x4x1024x1024_S20x4x1024x16_S20x4x1024x16_3_2_2_3_01_01.lhsIdx i q 1).val = (i 1).val := by
  simp [DotDims.lhsIdx, dot_S20x4x1024x1024_S20x4x1024x16_S20x4x1024x16_3_2_2_3_01_01]; rfl
/-- … on the row axis. -/
theorem attnDot_lhs_2 (i : S20x4x1024x16.Idx) (q : dot_S20x4x1024x1024_S20x4x1024x16_S20x4x1024x16_3_2_2_3_01_01.contr.Idx) :
    (dot_S20x4x1024x1024_S20x4x1024x16_S20x4x1024x16_3_2_2_3_01_01.lhsIdx i q 2).val = (i 2).val := by
  simp [DotDims.lhsIdx, dot_S20x4x1024x1024_S20x4x1024x16_S20x4x1024x16_3_2_2_3_01_01]; rfl
/-- … on the column axis: the contracted row of values. -/
theorem attnDot_lhs_3 (i : S20x4x1024x16.Idx) (q : dot_S20x4x1024x1024_S20x4x1024x16_S20x4x1024x16_3_2_2_3_01_01.contr.Idx) :
    (dot_S20x4x1024x1024_S20x4x1024x16_S20x4x1024x16_3_2_2_3_01_01.lhsIdx i q 3).val = (q ⟨0, by decide⟩).val := by
  simp [DotDims.lhsIdx, dot_S20x4x1024x1024_S20x4x1024x16_S20x4x1024x16_3_2_2_3_01_01]; rfl
/-- The right operand index on the slice axis. -/
theorem attnDot_rhs_0 (i : S20x4x1024x16.Idx) (q : dot_S20x4x1024x1024_S20x4x1024x16_S20x4x1024x16_3_2_2_3_01_01.contr.Idx) :
    (dot_S20x4x1024x1024_S20x4x1024x16_S20x4x1024x16_3_2_2_3_01_01.rhsIdx i q 0).val = (i 0).val := by
  simp [DotDims.rhsIdx, dot_S20x4x1024x1024_S20x4x1024x16_S20x4x1024x16_3_2_2_3_01_01]; rfl
/-- … on the head axis. -/
theorem attnDot_rhs_1 (i : S20x4x1024x16.Idx) (q : dot_S20x4x1024x1024_S20x4x1024x16_S20x4x1024x16_3_2_2_3_01_01.contr.Idx) :
    (dot_S20x4x1024x1024_S20x4x1024x16_S20x4x1024x16_3_2_2_3_01_01.rhsIdx i q 1).val = (i 1).val := by
  simp [DotDims.rhsIdx, dot_S20x4x1024x1024_S20x4x1024x16_S20x4x1024x16_3_2_2_3_01_01]; rfl
/-- … on the row axis: the contracted row of values. -/
theorem attnDot_rhs_2 (i : S20x4x1024x16.Idx) (q : dot_S20x4x1024x1024_S20x4x1024x16_S20x4x1024x16_3_2_2_3_01_01.contr.Idx) :
    (dot_S20x4x1024x1024_S20x4x1024x16_S20x4x1024x16_3_2_2_3_01_01.rhsIdx i q 2).val = (q ⟨0, by decide⟩).val := by
  simp [DotDims.rhsIdx, dot_S20x4x1024x1024_S20x4x1024x16_S20x4x1024x16_3_2_2_3_01_01]; rfl
/-- … on the lane axis. -/
theorem attnDot_rhs_3 (i : S20x4x1024x16.Idx) (q : dot_S20x4x1024x1024_S20x4x1024x16_S20x4x1024x16_3_2_2_3_01_01.contr.Idx) :
    (dot_S20x4x1024x1024_S20x4x1024x16_S20x4x1024x16_3_2_2_3_01_01.rhsIdx i q 3).val = (i 3).val := by
  simp [DotDims.rhsIdx, dot_S20x4x1024x1024_S20x4x1024x16_S20x4x1024x16_3_2_2_3_01_01]; rfl

/-- The product of weights and values at (s, h, r, d): the sum over the 1024 rows of values. -/
theorem attnDot_apply (a : FVec Ideal S20x4x1024x1024 .f32) (b : FVec Ideal S20x4x1024x16 .f32)
    (s : Fin 20) (h : Fin 4) (r : Fin 1024) (d : Fin 16) :
    Host.dotGeneral dot_S20x4x1024x1024_S20x4x1024x16_S20x4x1024x16_3_2_2_3_01_01 none a b (ix4 s h r d)
      = ∑ k : Fin 1024, a (ix4 s h r k) * b (ix4 s h k d) := by
  refine (Ideal.dotGeneral_apply dot_S20x4x1024x1024_S20x4x1024x16_S20x4x1024x16_3_2_2_3_01_01 none .single a b (ix4 s h r d)).trans ?_
  refine (Equiv.sum_comp (contrEquiv1 dot_S20x4x1024x1024_S20x4x1024x16_S20x4x1024x16_3_2_2_3_01_01 1024 rfl rfl).symm _).symm.trans ?_
  refine Finset.sum_congr rfl fun k _ => ?_
  have hk := contrEquiv1_symm_val dot_S20x4x1024x1024_S20x4x1024x16_S20x4x1024x16_3_2_2_3_01_01 1024 rfl rfl k
  have el : dot_S20x4x1024x1024_S20x4x1024x16_S20x4x1024x16_3_2_2_3_01_01.lhsIdx (ix4 s h r d) ((contrEquiv1 dot_S20x4x1024x1024_S20x4x1024x16_S20x4x1024x16_3_2_2_3_01_01 1024 rfl rfl).symm k) = ix4 s h r k :=
    funext fun c => Fin.ext (by
      match c with
      | ⟨0, _⟩ => exact attnDot_lhs_0 _ _
      | ⟨1, _⟩ => exact attnDot_lhs_1 _ _
      | ⟨2, _⟩ => exact attnDot_lhs_2 _ _
      | ⟨3, _⟩ => exact (attnDot_lhs_3 _ _).trans hk)
  have er : dot_S20x4x1024x1024_S20x4x1024x16_S20x4x1024x16_3_2_2_3_01_01.rhsIdx (ix4 s h r d) ((contrEquiv1 dot_S20x4x1024x1024_S20x4x1024x16_S20x4x1024x16_3_2_2_3_01_01 1024 rfl rfl).symm k) = ix4 s h k d :=
    funext fun c => Fin.ext (by
      match c with
      | ⟨0, _⟩ => exact attnDot_rhs_0 _ _
      | ⟨1, _⟩ => exact attnDot_rhs_1 _ _
      | ⟨2, _⟩ => exact (attnDot_rhs_2 _ _).trans hk
      | ⟨3, _⟩ => exact attnDot_rhs_3 _ _)
  exact congrArg₂ (· * ·) (congrArg a el) (congrArg b er)

/-! ## The row reductions and the weights -/

/-- Dropping the last axis of the scores' shape gives the rows' shape. -/
theorem reduces_cols : S20x4x1024x1024.Reduces [3] S20x4x1024 := by decide

/-- The row index (s, h, r) with column k inserted on the dropped axis is (s, h, r, k). -/
theorem lift_cols (s : Fin 20) (h : Fin 4) (r k : Fin 1024) : reduces_cols.lift (ix3 s h r) k = ix4 s h r k :=
  funext fun a => Fin.ext (by
    match a with
    | ⟨0, _⟩ => rfl
    | ⟨1, _⟩ => rfl
    | ⟨2, _⟩ => rfl
    | ⟨3, _⟩ => rfl)

/-- The row maxima at (s, h, r): the shift of the row of scores. -/
theorem rRowMax_apply (sc : FVec Ideal S20x4x1024x1024 .f32) (s : Fin 20) (h : Fin 4) (r : Fin 1024) :
    rRowMax sc (ix3 s h r) = rowMax (fun k => sc (ix4 s h r k)) := by
  unfold rRowMax rowMax
  refine (maximumf_apply _ _ _).trans ?_
  refine congrArg₂ max ?_ ?_
  · exact broadcastInDim_apply _ bcast_S_S20x4x1024 _ (ix3 s h r) ix0 (fun a => a.elim0)
  · refine (Host.reduce_eq_fold_single _ sc _ reducesTo_S20x4x1024x1024_S20x4x1024_d3 reduces_cols h_S_ (ix3 s h r)).trans ?_
    exact congrArg (Finset.univ.fold max negInf) (funext fun k => congrArg sc (lift_cols s h r k))

/-- The shifted exponentials at (s, h, r, k). -/
theorem rExp_apply (sc : FVec Ideal S20x4x1024x1024 .f32) (s : Fin 20) (h : Fin 4) (r k : Fin 1024) :
    rExp sc (ix4 s h r k) = expo (fun k' => sc (ix4 s h r k')) k := by
  show Ideal.exp (sc (ix4 s h r k) - rCols (rRowMax sc) (ix4 s h r k)) = _
  rw [rCols_apply, rRowMax_apply]
  rfl

/-- The row sums at (s, h, r): from zero, so the plain sum over the row. -/
theorem rRowSum_apply (e : FVec Ideal S20x4x1024x1024 .f32) (s : Fin 20) (h : Fin 4) (r : Fin 1024) :
    rRowSum e (ix3 s h r) = ∑ k : Fin 1024, e (ix4 s h r k) := by
  unfold rRowSum
  refine (Ideal.hostReduceAdd_single reducesTo_S20x4x1024x1024_S20x4x1024_d3 reduces_cols e _ (ix3 s h r)).trans ?_
  rw [constant_apply, Ideal.ofBits_zero_f32, zero_add]
  exact Finset.sum_congr rfl fun k _ => congrArg e (lift_cols s h r k)

/-- The weights at (s, h, r, k): the entry over its row's sum. -/
theorem rSoft_apply (e : FVec Ideal S20x4x1024x1024 .f32) (s : Fin 20) (h : Fin 4) (r k : Fin 1024) :
    rSoft e (ix4 s h r k) = Ideal.div (e (ix4 s h r k)) (∑ k' : Fin 1024, e (ix4 s h r k')) := by
  show Ideal.div (e (ix4 s h r k)) (rCols (rRowSum e) (ix4 s h r k)) = _
  rw [rCols_apply, rRowSum_apply]

/-! ## Scores, one branch, and the result -/

/-- The scores at (s, h, r, k): head h's score of query row r against key row k. -/
theorem rScores_apply (q k : FVec Ideal S20x1024x64 .f32) (s : Fin 20) (h : Fin 4) (r k' : Fin 1024) :
    rScores q k (ix4 s h r k')
      = score (fun r c => q (ix3 s r c)) (fun r c => k (ix3 s r c)) h r k' := by
  unfold rScores score
  refine (mulf_apply _ _ _).trans ?_
  refine congrArg₂ (· * ·) ?_ ?_
  · refine (scoresDot_apply (rHeads q) (rHeads k) s h r k').trans ?_
    exact Finset.sum_congr rfl fun d _ => by rw [rHeads_apply, rHeads_apply]
  · exact broadcastInDim_apply _ bcast_S_S20x4x1024x1024 _ (ix4 s h r k') ix0 (fun a => a.elim0)

/-- One branch at (s, r, 16 h + d): head h's output at row r, lane d, over the slice's queries, keys and values. -/
theorem rAttn_apply (q k v : FVec Ideal S20x1024x64 .f32) (s : Fin 20) (r : Fin 1024) (h : Fin 4) (d : Fin 16) :
    rAttn q k v (ix3 s r (col h d))
      = head (fun r c => q (ix3 s r c)) (fun r c => k (ix3 s r c)) (fun r c => v (ix3 s r c)) h r d := by
  unfold rAttn head
  refine (shapeCast_apply _ shapeCasts_S20x1024x4x16_S20x1024x64 (ix3 s r (col h d)) (ix4 s r h d) ?_).trans ?_
  · rw [Shape.rowMajor_val_four, Shape.rowMajor_val_three]
    show ((s.val * 1024 + r.val) * 4 + h.val) * 16 + d.val = (s.val * 1024 + r.val) * 64 + (16 * h.val + d.val)
    omega
  refine (transpose_apply [0, 2, 1, 3] _ transposes_S20x4x1024x16_S20x1024x4x16_0_2_1_3 (ix4 s r h d) (ix4 s h r d) (fun b => match b with
    | ⟨0, _⟩ => rfl
    | ⟨1, _⟩ => rfl
    | ⟨2, _⟩ => rfl
    | ⟨3, _⟩ => rfl)).trans ?_
  refine (attnDot_apply _ _ s h r d).trans ?_
  refine Finset.sum_congr rfl fun k' _ => ?_
  have hsc : (fun k'' => rScores q k (ix4 s h r k'')) = score (fun r c => q (ix3 s r c)) (fun r c => k (ix3 s r c)) h r :=
    funext fun k'' => rScores_apply q k s h r k''
  have hex : (fun k'' => rExp (rScores q k) (ix4 s h r k'')) = expo (score (fun r c => q (ix3 s r c)) (fun r c => k (ix3 s r c)) h r) :=
    funext fun k'' => by rw [rExp_apply, hsc]
  refine congrArg₂ (· * ·) ?_ (rHeads_apply v s h k' d)
  rw [rSoft_apply]
  show Ideal.div ((fun k'' => rExp (rScores q k) (ix4 s h r k'')) k') (∑ k'' : Fin 1024, (fun k'' => rExp (rScores q k) (ix4 s h r k'')) k'') = _
  rw [hex]
  rfl

/-- The affine map of slab p of the input at slice s, by row and channel. -/
theorem rAff_rSlab (off : Fin 4 → Nat) (hs : S3x20x1024x64.Slices off S1x20x1024x64) (x : FVec Ideal S3x20x1024x64 .f32)
    (p : Fin 3) (h0 : off 0 = p.val) (h1 : off 1 = 0) (h2 : off 2 = 0) (h3 : off 3 = 0)
    (w b : FVec Ideal S64 .f32) (s : Fin 20) :
    (fun r c => rAff (rSlab off hs x) w b (ix3 s r c)) = aff (slab x p s) (vec w) (vec b) :=
  funext fun r => funext fun c => by
    rw [rAff_apply, rSlab_apply off hs x p h0 h1 h2 h3]
    rfl

/-- One branch of the reference at (s, r, 16 h + d), from the three slabs and the branch's six parameter vectors. -/
theorem rBranch_apply (x : FVec Ideal S3x20x1024x64 .f32) (qw qb kw kb vw vb : FVec Ideal S64 .f32)
    (s : Fin 20) (r : Fin 1024) (h : Fin 4) (d : Fin 16) :
    rAttn (rAff (rSlab ![0, 0, 0, 0] slices_S3x20x1024x64_S1x20x1024x64_0_0_0_0 x) qw qb)
        (rAff (rSlab ![1, 0, 0, 0] slices_S3x20x1024x64_S1x20x1024x64_1_0_0_0 x) kw kb)
        (rAff (rSlab ![2, 0, 0, 0] slices_S3x20x1024x64_S1x20x1024x64_2_0_0_0 x) vw vb) (ix3 s r (col h d))
      = branch x qw qb kw kb vw vb s r h d := by
  refine (rAttn_apply _ _ _ s r h d).trans ?_
  unfold branch
  rw [rAff_rSlab ![0, 0, 0, 0] slices_S3x20x1024x64_S1x20x1024x64_0_0_0_0 x 0 rfl rfl rfl rfl qw qb s,
    rAff_rSlab ![1, 0, 0, 0] slices_S3x20x1024x64_S1x20x1024x64_1_0_0_0 x 1 rfl rfl rfl rfl kw kb s,
    rAff_rSlab ![2, 0, 0, 0] slices_S3x20x1024x64_S1x20x1024x64_2_0_0_0 x 2 rfl rfl rfl rfl vw vb s]

/-- The result at slice s, row r, channel col h d: twice the half-and-half mean of the two branches, scaled and
    shifted per channel. -/
theorem rOut_apply (x : FVec Ideal S3x20x1024x64 .f32)
    (gqw gqb gkw gkb gvw gvb lqw lqb lkw lkb lvw lvb pw pb : FVec Ideal S64 .f32) (s : Fin 20) (r : Fin 1024) (h : Fin 4) (d : Fin 16) :
    rOut x gqw gqb gkw gkb gvw gvb lqw lqb lkw lkb lvw lvb pw pb (ix3 s r (col h d))
      = two * (half * branch x lqw lqb lkw lkb lvw lvb s r h d + half * branch x gqw gqb gkw gkb gvw gvb s r h d)
        * vec pw (col h d) + vec pb (col h d) := by
  unfold rOut
  refine (addf_apply _ _ _).trans ?_
  refine congrArg₂ (· + ·) ?_ (rRows_apply pb s r (col h d))
  refine (mulf_apply _ _ _).trans ?_
  refine congrArg₂ (· * ·) ?_ (rRows_apply pw s r (col h d))
  refine (mulf_apply _ _ _).trans ?_
  refine congrArg₂ (· * ·) (rSplat_apply _ _) ?_
  refine (addf_apply _ _ _).trans ?_
  refine congrArg₂ (· + ·) ?_ ?_
  · refine (mulf_apply _ _ _).trans ?_
    exact congrArg₂ (· * ·) (rSplat_apply _ _) (rBranch_apply x lqw lqb lkw lkb lvw lvb s r h d)
  · refine (mulf_apply _ _ _).trans ?_
    exact congrArg₂ (· * ·) (rSplat_apply _ _) (rBranch_apply x gqw gqb gkw gkb gvw gvb s r h d)

end Cert.ReferenceIdeal.Body

end
-- ==== Proof.lean ====
/-
  The kernel runs one slice of a two-branch, four-head attention per grid point; the reference computes all
  twenty slices at once. Both are read down to one specification (Proof/Spec.lean): per slice, row and channel,
  the two branches' heads over per-channel affine maps of the three slabs, combined, scaled and shifted.

  Kernel side: the body's stored value is one structured term (Proof/KernelBody.lean), read at an index in
  Proof/KernelValue.lean; the twenty blocks tile the result array (Proof/KernelArray.lean), which therefore ends
  as the specification's G of the arguments. Reference side: the run's composed term is one structured term
  (Proof/RefBody.lean), read at an index in Proof/RefValue.lean as twice the half-and-half mean of the two
  branches. The two meet by the one law double_mean: 2 * (1/2 * l + 1/2 * g) = g + l on every extended real, so
  no finiteness of the inputs is used. The frames of the two kernel programs are the generated ones; the
  reference's frame is its generated run with the result dropped; the idealization rewrote nothing.
-/
import proofs.«171287_j12481174962635_1_alg».proof.Defs
import proofs.«171287_j12481174962635_1_alg».proof.Proof.Gen.Kernel
import proofs.«171287_j12481174962635_1_alg».proof.Proof.Gen.Kernel.Skeleton
import proofs.«171287_j12481174962635_1_alg».proof.Proof.Gen.Kernel.Launch
import proofs.«171287_j12481174962635_1_alg».proof.Proof.Gen.Kernel.Points
import proofs.«171287_j12481174962635_1_alg».proof.Proof.Gen.Kernel.Frame
import proofs.«171287_j12481174962635_1_alg».proof.Proof.Gen.KernelIdeal
import proofs.«171287_j12481174962635_1_alg».proof.Proof.Gen.KernelIdeal.Skeleton
import proofs.«171287_j12481174962635_1_alg».proof.Proof.Gen.KernelIdeal.Launch
import proofs.«171287_j12481174962635_1_alg».proof.Proof.Gen.KernelIdeal.Points
import proofs.«171287_j12481174962635_1_alg».proof.Proof.Gen.KernelIdeal.Frame
import proofs.«171287_j12481174962635_1_alg».proof.Proof.Gen.ReferenceIdeal
import proofs.«171287_j12481174962635_1_alg».proof.Proof.Gen.Pre_finite_inputs
import proofs.«171287_j12481174962635_1_alg».proof.Proof.Gen.KernelIdeal.Value
import proofs.«171287_j12481174962635_1_alg».proof.Proof.Gen.ReferenceIdeal.Run
import proofs.«171287_j12481174962635_1_alg».proof.Proof.Spec
import proofs.«171287_j12481174962635_1_alg».proof.Proof.KernelArray
import proofs.«171287_j12481174962635_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Cert.Attn

/-- The reference's structured term is the specification's G: at every index, twice the half-and-half mean of the
    branches is their sum. -/
theorem ref_eq_G (x : FVec Ideal Cert.ReferenceIdeal.S3x20x1024x64 .f32)
    (gqw gqb gkw gkb gvw gvb lqw lqb lkw lkb lvw lvb pw pb : FVec Ideal Cert.ReferenceIdeal.S64 .f32) :
    Cert.ReferenceIdeal.Body.rOut x gqw gqb gkw gkb gvw gvb lqw lqb lkw lkb lvw lvb pw pb
      = G x gqw gqb gkw gkb gvw gvb lqw lqb lkw lkb lvw lvb pw pb := by
  funext i
  obtain ⟨h, d, hc⟩ := exists_col (⟨(i 2).val, (i 2).isLt⟩ : Fin 64)
  have hi : i = ix3 (⟨(i 0).val, (i 0).isLt⟩ : Fin 20) (⟨(i 1).val, (i 1).isLt⟩ : Fin 1024) (col h d) := by
    funext a
    match a with
    | ⟨0, _⟩ => rfl
    | ⟨1, _⟩ => rfl
    | ⟨2, _⟩ => exact hc
  generalize (⟨(i 0).val, (i 0).isLt⟩ : Fin 20) = s at hi
  generalize (⟨(i 1).val, (i 1).isLt⟩ : Fin 1024) = r at hi
  subst hi
  rw [Cert.ReferenceIdeal.Body.rOut_apply, G_apply, double_mean]
  rfl

theorem frame_k : Cert.frame_Kernel := fun m ρ _ => Cert.Kernel.Gen.frame m ρ

theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification's G of the (agreeing) arguments. -/
theorem algebraic : Cert.algebraic_KernelIdeal_ReferenceIdeal := by
  intro m ρ m' ρ' _ hagree
  refine ⟨fun c => G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14⟩ := hagree c
  rw [Cert.ReferenceIdeal.Body.result_eq, a0, a1, a2, a3, a4, a5, a6, a7, a8, a9, a10, a11, a12, a13, a14]
  exact ref_eq_G _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
